-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000x80 : Shape := ⟨3, ![16, 1000, 80]⟩
abbrev S16x1000x4 : Shape := ⟨3, ![16, 1000, 4]⟩
abbrev S16x64 : Shape := ⟨2, ![16, 64]⟩
abbrev S16x64x4 : Shape := ⟨3, ![16, 64, 4]⟩
abbrev S_ : Shape := ⟨0, ![]⟩

class Facts : Prop where
  bcast_S_S16x1000x80 : S_.BroadcastsInDim S16x1000x80 (![] : Fin 0 → Fin S16x1000x80.rank)
  reducesTo_S16x1000x80_S_d0_1_2 : S16x1000x80.ReducesTo [0, 1, 2] S_
  h_S_ : 0 < S_.numel
  bcast_S_S16x1000x4 : S_.BroadcastsInDim S16x1000x4 (![] : Fin 0 → Fin S16x1000x4.rank)
  reducesTo_S16x1000x4_S_d0_1_2 : S16x1000x4.ReducesTo [0, 1, 2] S_
  bcast_S_S16x64x4 : S_.BroadcastsInDim S16x64x4 (![] : Fin 0 → Fin S16x64x4.rank)
  reducesTo_S16x64x4_S_d0_1_2 : S16x64x4.ReducesTo [0, 1, 2] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg2 : IVec S16x64 32) (main_v13 : IVec S_ 1) (main_v15 : IVec S16x64 1) (main_c_5 : IVec S_ 1) : IVec S_ 1 :=
  let main_v16 : IVec S_ 1 := (fun x v => Host.reduce IntOp.andi x v reducesTo_S16x64_S_d0_1 h_S_) main_v15 main_c_5
  let main_v17 : IVec S_ 1 := andi main_v13 main_v16
  let main_c_6 : IVec S_ 32 := constantI S_ 32 80#32
  let main_v18 : IVec S16x64 32 := broadcastInDim S16x64 ![] bcast_S_S16x64 main_c_6
  let main_v19 : IVec S16x64 1 := cmpi .slt main_arg2 main_v18
  let main_c_7 : IVec S_ 1 := constantI S_ 1 1#1
  let main_v20 : IVec S_ 1 := (fun x v => Host.reduce IntOp.andi x v reducesTo_S16x64_S_d0_1 h_S_) main_v19 main_c_7
  let main_v21 : IVec S_ 1 := andi main_v17 main_v20
  main_v21

def fn {F : FTy → Type} [FloatOps F] (main_arg0 : FVec F S16x1000x80 .f32) (main_arg1 : FVec F S16x1000x4 .f32) (main_arg2 : IVec S16x64 32) (main_arg3 : FVec F S16x64x4 .f32) : IVec S_ 1 :=
  let main_v0 : FVec F S16x1000x80 .f32 := Host.absf main_arg0
  let main_cst : FVec F S_ .f32 := constant S_ .f32 0x7F800000#32
  let main_v1 : FVec F S16x1000x80 .f32 := broadcastInDim S16x1000x80 ![] bcast_S_S16x1000x80 main_cst
  let main_v2 : IVec S16x1000x80 1 := cmpf .olt main_v0 main_v1
  let main_c : IVec S_ 1 := constantI S_ 1 1#1
  let main_v3 : IVec S_ 1 := (fun x v => Host.reduce IntOp.andi x v reducesTo_S16x1000x80_S_d0_1_2 h_S_) main_v2 main_c
  let main_v4 : FVec F S16x1000x4 .f32 := Host.absf main_arg1
  let main_cst_0 : FVec F S_ .f32 := constant S_ .f32 0x7F800000#32
  let main_v5 : FVec F S16x1000x4 .f32 := broadcastInDim S16x1000x4 ![] bcast_S_S16x1000x4 main_cst_0
  let main_v6 : IVec S16x1000x4 1 := cmpf .olt main_v4 main_v5
  let main_c_1 : IVec S_ 1 := constantI S_ 1 1#1
  let main_v7 : IVec S_ 1 := (fun x v => Host.reduce IntOp.andi x v reducesTo_S16x1000x4_S_d0_1_2 h_S_) main_v6 main_c_1
  let main_v8 : IVec S_ 1 := andi main_v3 main_v7
  let main_v9 : FVec F S16x64x4 .f32 := Host.absf main_arg3
  let main_cst_2 : FVec F S_ .f32 := constant S_ .f32 0x7F800000#32
  let main_v10 : FVec F S16x64x4 .f32 := broadcastInDim S16x64x4 ![] bcast_S_S16x64x4 main_cst_2
  let main_v11 : IVec S16x64x4 1 := cmpf .olt main_v9 main_v10
  let main_c_3 : IVec S_ 1 := constantI S_ 1 1#1
  let main_v12 : IVec S_ 1 := (fun x v => Host.reduce IntOp.andi x v reducesTo_S16x64x4_S_d0_1_2 h_S_) main_v11 main_c_3
  let main_v13 : IVec S_ 1 := andi main_v8 main_v12
  let main_c_4 : IVec S_ 32 := constantI S_ 32 0#32
  let main_v14 : IVec S16x64 32 := broadcastInDim S16x64 ![] bcast_S_S16x64 main_c_4
  let main_v15 : IVec S16x64 1 := cmpi .sge main_arg2 main_v14
  let main_c_5 : IVec S_ 1 := constantI S_ 1 1#1
  fn_part1 (F := F) main_arg2 main_v13 main_v15 main_c_5
-- ==== Kernel.lean ====
abbrev S16x1000x80 : Shape := ⟨3, ![16, 1000, 80]⟩
abbrev S16x1000x4 : Shape := ⟨3, ![16, 1000, 4]⟩
abbrev S16x64 : Shape := ⟨2, ![16, 64]⟩
abbrev S16x64x4 : Shape := ⟨3, ![16, 64, 4]⟩
abbrev S16000x80 : Shape := ⟨2, ![16000, 80]⟩
abbrev S_ : Shape := ⟨0, ![]⟩
abbrev S16000x4 : Shape := ⟨2, ![16000, 4]⟩
abbrev S1024 : Shape := ⟨1, ![1024]⟩
abbrev S80 : Shape := ⟨1, ![80]⟩
abbrev S1x80 : Shape := ⟨2, ![1, 80]⟩
abbrev S1024x1 : Shape := ⟨2, ![1024, 1]⟩
abbrev S1024x80 : Shape := ⟨2, ![1024, 80]⟩
abbrev S80x1024 : Shape := ⟨2, ![80, 1024]⟩
abbrev S1024x4 : Shape := ⟨2, ![1024, 4]⟩
abbrev S4x1024 : Shape := ⟨2, ![4, 1024]⟩
abbrev S16000x1024 : Shape := ⟨2, ![16000, 1024]⟩
abbrev S400x4 : Shape := ⟨2, ![400, 4]⟩
abbrev S400x80 : Shape := ⟨2, ![400, 80]⟩
abbrev S400x1024 : Shape := ⟨2, ![400, 1024]⟩
abbrev S400x1 : Shape := ⟨2, ![400, 1]⟩
abbrev S1x1024 : Shape := ⟨2, ![1, 1024]⟩
abbrev S16x1000x1024 : Shape := ⟨3, ![16, 1000, 1024]⟩

abbrev nBuf : Space → Nat
  | .hbm => 58
  | .vmem => 8
  | .smem => 0
  | _ => 0

abbrev bufTy : (tb : Table) → Fin (tcTables nBuf tb) → BufTy
  | .hbm, ⟨0, _⟩ => ⟨S16x1000x80, .f32⟩
  | .hbm, ⟨1, _⟩ => ⟨S16x1000x4, .f32⟩
  | .hbm, ⟨2, _⟩ => ⟨S16x64, .i32⟩
  | .hbm, ⟨3, _⟩ => ⟨S16x64x4, .f32⟩
  | .hbm, ⟨4, _⟩ => ⟨S16000x80, .f32⟩
  | .hbm, ⟨5, _⟩ => ⟨S16000x80, .f32⟩
  | .hbm, ⟨6, _⟩ => ⟨S16000x80, .f32⟩
  | .hbm, ⟨7, _⟩ => ⟨S_, .f32⟩
  | .hbm, ⟨8, _⟩ => ⟨S16000x80, .f32⟩
  | .hbm, ⟨9, _⟩ => ⟨S16000x80, .f32⟩
  | .hbm, ⟨10, _⟩ => ⟨S_, .f32⟩
  | .hbm, ⟨11, _⟩ => ⟨S16000x80, .f32⟩
  | .hbm, ⟨12, _⟩ => ⟨S16000x80, .f32⟩
  | .hbm, ⟨13, _⟩ => ⟨S_, .f32⟩
  | .hbm, ⟨14, _⟩ => ⟨S16000x80, .f32⟩
  | .hbm, ⟨15, _⟩ => ⟨S16000x80, .f32⟩
  | .hbm, ⟨16, _⟩ => ⟨S_, .f32⟩
  | .hbm, ⟨17, _⟩ => ⟨S16000x80, .f32⟩
  | .hbm, ⟨18, _⟩ => ⟨S16000x80, .f32⟩
  | .hbm, ⟨19, _⟩ => ⟨S_, .f32⟩
  | .hbm, ⟨20, _⟩ => ⟨S16000x80, .f32⟩
  | .hbm, ⟨21, _⟩ => ⟨S16000x80, .f32⟩
  | .hbm, ⟨22, _⟩ => ⟨S_, .f32⟩
  | .hbm, ⟨23, _⟩ => ⟨S16000x80, .f32⟩
  | .hbm, ⟨24, _⟩ => ⟨S16000x80, .f32⟩
  | .hbm, ⟨25, _⟩ => ⟨S16000x80, .f32⟩
  | .hbm, ⟨26, _⟩ => ⟨S16000x80, .f32⟩
  | .hbm, ⟨27, _⟩ => ⟨S16000x80, .f32⟩
  | .hbm, ⟨28, _⟩ => ⟨S_, .f32⟩
  | .hbm, ⟨29, _⟩ => ⟨S16000x80, .f32⟩
  | .hbm, ⟨30, _⟩ => ⟨S16000x80, .f32⟩
  | .hbm, ⟨31, _⟩ => ⟨S_, .f32⟩
  | .hbm, ⟨32, _⟩ => ⟨S16000x80, .f32⟩
  | .hbm, ⟨33, _⟩ => ⟨S16000x80, .f32⟩
  | .hbm, ⟨34, _⟩ => ⟨S_, .f32⟩
  | .hbm, ⟨35, _⟩ => ⟨S16000x80, .f32⟩
  | .hbm, ⟨36, _⟩ => ⟨S16000x80, .f32⟩
  | .hbm, ⟨37, _⟩ => ⟨S_, .f32⟩
  | .hbm, ⟨38, _⟩ => ⟨S16000x80, .f32⟩
  | .hbm, ⟨39, _⟩ => ⟨S16000x80, .f32⟩
  | .hbm, ⟨40, _⟩ => ⟨S16000x80, .f32⟩
  | .hbm, ⟨41, _⟩ => ⟨S16000x80, .f32⟩
  | .hbm, ⟨42, _⟩ => ⟨S16000x80, .f32⟩
  | .hbm, ⟨43, _⟩ => ⟨S16000x80, .f32⟩
  | .hbm, ⟨44, _⟩ => ⟨S16000x4, .f32⟩
  | .hbm, ⟨45, _⟩ => ⟨S1024, .i32⟩
  | .hbm, ⟨46, _⟩ => ⟨S80, .i32⟩
  | .hbm, ⟨47, _⟩ => ⟨S1x80, .i32⟩
  | .hbm, ⟨48, _⟩ => ⟨S1024x1, .i32⟩
  | .hbm, ⟨49, _⟩ => ⟨S1024x80, .i32⟩
  | .hbm, ⟨50, _⟩ => ⟨S1024x80, .i32⟩
  | .hbm, ⟨51, _⟩ => ⟨S1024x80, .i1⟩
  | .hbm, ⟨52, _⟩ => ⟨S1024x80, .f32⟩
  | .hbm, ⟨53, _⟩ => ⟨S80x1024, .f32⟩
  | .hbm, ⟨54, _⟩ => ⟨S1024x4, .f32⟩
  | .hbm, ⟨55, _⟩ => ⟨S4x1024, .f32⟩
  | .hbm, ⟨56, _⟩ => ⟨S16000x1024, .f32⟩
  | .hbm, ⟨57, _⟩ => ⟨S16x1000x1024, .f32⟩
  | .local _ .vmem, ⟨0, _⟩ => ⟨S400x4, .f32⟩
  | .local _ .vmem, ⟨1, _⟩ => ⟨S400x4, .f32⟩
  | .local _ .vmem, ⟨2, _⟩ => ⟨S400x80, .f32⟩
  | .local _ .vmem, ⟨3, _⟩ => ⟨S400x80, .f32⟩
  | .local _ .vmem, ⟨4, _⟩ => ⟨S4x1024, .f32⟩
  | .local _ .vmem, ⟨5, _⟩ => ⟨S80x1024, .f32⟩
  | .local _ .vmem, ⟨6, _⟩ => ⟨S400x1024, .f32⟩
  | .local _ .vmem, ⟨7, _⟩ => ⟨S400x1024, .f32⟩
  | _, _ => ⟨S16x1000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x1000x80_S16000x80 : S16x1000x80.ShapeCasts S16000x80
  bcast_S_S16000x80 : S_.BroadcastsInDim S16000x80 (![] : Fin 0 → Fin S16000x80.rank)
  shapeCasts_S16x1000x4_S16000x4 : S16x1000x4.ShapeCasts S16000x4
  shapeCasts_S16x64_S1024 : S16x64.ShapeCasts S1024
  bcast_S80_S1x80_1 : S80.BroadcastsInDim S1x80 (![1] : Fin 1 → Fin S1x80.rank)
  bcast_S1024_S1024x1_0 : S1024.BroadcastsInDim S1024x1 (![0] : Fin 1 → Fin S1024x1.rank)
  bcast_S1024x1_S1024x80_0_1 : S1024x1.BroadcastsInDim S1024x80 (![0, 1] : Fin 2 → Fin S1024x80.rank)
  bcast_S1x80_S1024x80_0_1 : S1x80.BroadcastsInDim S1024x80 (![0, 1] : Fin 2 → Fin S1024x80.rank)
  transposes_S1024x80_S80x1024_1_0 : S1024x80.Transposes [1, 0] S80x1024
  shapeCasts_S16x64x4_S1024x4 : S16x64x4.ShapeCasts S1024x4
  transposes_S1024x4_S4x1024_1_0 : S1024x4.Transposes [1, 0] S4x1024
  inb_S400x4_S400x4_0_0 : ∀ a, (![0, 0] : Fin 2 → Nat) a + S400x4.size a ≤ S400x4.size a
  h_S400x4 : 0 < S400x4.numel
  shapeCasts_S400x4_S400x4 : S400x4.ShapeCasts S400x4
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  slices_S400x4_o0_0_S400x1 : S400x4.Slices ![0, 0] S400x1
  slices_S400x4_o0_1_S400x1 : S400x4.Slices ![0, 1] S400x1
  slices_S400x4_o0_2_S400x1 : S400x4.Slices ![0, 2] S400x1
  slices_S400x4_o0_3_S400x1 : S400x4.Slices ![0, 3] S400x1
  slices_S4x1024_o0_0_S1x1024 : S4x1024.Slices ![0, 0] S1x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  broadcasts_S400x1_S400x1024 : S400x1.Broadcasts S400x1024
  broadcasts_S1x1024_S400x1024 : S1x1024.Broadcasts S400x1024
  inb_S400x80_S400x80_0_0 : ∀ a, (![0, 0] : Fin 2 → Nat) a + S400x80.size a ≤ S400x80.size a
  h_S400x80 : 0 < S400x80.numel
  shapeCasts_S400x80_S400x80 : S400x80.ShapeCasts S400x80
  bitsLt_bf16_f32 : FTy.bits .bf16 < FTy.bits .f32
  inb_S80x1024_S80x1024_0_0 : ∀ a, (![0, 0] : Fin 2 → Nat) a + S80x1024.size a ≤ S80x1024.size a
  h_S80x1024 : 0 < S80x1024.numel
  shapeCasts_S80x1024_S80x1024 : S80x1024.ShapeCasts S80x1024
  inb_S400x1024_S400x1024_0_0 : ∀ a, (![0, 0] : Fin 2 → Nat) a + S400x1024.size a ≤ S400x1024.size a
  h_S400x1024 : 0 < S400x1024.numel
  shapeCasts_S16000x1024_S16x1000x1024 : S16000x1024.ShapeCasts S16x1000x1024
  dot_S400x80_S80x1024_S400x1024_1_0_0_1_n_n_wf : DotDims.WF S400x80 S80x1024 S400x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x4.size a ≤ S16000x4.size a
  hwx0_0 : ∀ i : grid0.Coords, EltTy.bits .f32 = 32 ∨ (Rect.block (s := S16000x4) S400x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x80.size a ≤ S16000x80.size a
  hwx0_1 : ∀ i : grid0.Coords, EltTy.bits .f32 = 32 ∨ (Rect.block (s := S16000x80) S400x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x1024.size a ≤ S80x1024.size a
  hwx0_3 : ∀ i : grid0.Coords, EltTy.bits .f32 = 32 ∨ (Rect.block (s := S80x1024) S80x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1024.size a ≤ S16000x1024.size a
  hwx0_4 : ∀ i : grid0.Coords, EltTy.bits .f32 = 32 ∨ (Rect.block (s := S16000x1024) S400x1024.size (cc0_transform_4 i) (hinb0_4 i)).WholeWords (EltTy.packing .f32)

variable [Facts₀]

def dot_S400x80_S80x1024_S400x1024_1_0_0_1_n_n : DotDims S400x80 S80x1024 S400x1024 where
  lhsContracting := [1]
  rhsContracting := [0]
  lhsNonContracting := [0]
  rhsNonContracting := [1]
  lhsBatch := []
  rhsBatch := []
  wf := dot_S400x80_S80x1024_S400x1024_1_0_0_1_n_n_wf

abbrev win0_0 : Pipeline.Window sig grid0 :=
  Pipeline.Window.ofSpec (Memref.whole main_v30) S400x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S400x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S80x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S400x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1000x80 : Shape := ⟨3, ![16, 1000, 80]⟩
abbrev S16x1000x4 : Shape := ⟨3, ![16, 1000, 4]⟩
abbrev S16x64 : Shape := ⟨2, ![16, 64]⟩
abbrev S16x64x4 : Shape := ⟨3, ![16, 64, 4]⟩
abbrev S16000x80 : Shape := ⟨2, ![16000, 80]⟩
abbrev S_ : Shape := ⟨0, ![]⟩
abbrev S16000x4 : Shape := ⟨2, ![16000, 4]⟩
abbrev S1024 : Shape := ⟨1, ![1024]⟩
abbrev S1024x4 : Shape := ⟨2, ![1024, 4]⟩
abbrev S1024x1 : Shape := ⟨2, ![1024, 1]⟩
abbrev S16000x1024 : Shape := ⟨2, ![16000, 1024]⟩
abbrev S16000x1 : Shape := ⟨2, ![16000, 1]⟩
abbrev S16000 : Shape := ⟨1, ![16000]⟩
abbrev S16000x2 : Shape := ⟨2, ![16000, 2]⟩
abbrev S16000x1x2 : Shape := ⟨3, ![16000, 1, 2]⟩
abbrev S1024x2 : Shape := ⟨2, ![1024, 2]⟩
abbrev S1x1024x2 : Shape := ⟨3, ![1, 1024, 2]⟩
abbrev S16000x1024x2 : Shape := ⟨3, ![16000, 1024, 2]⟩
abbrev S16000x1024x1 : Shape := ⟨3, ![16000, 1024, 1]⟩
abbrev S1x1024 : Shape := ⟨2, ![1, 1024]⟩
abbrev S16x1000x1024 : Shape := ⟨3, ![16, 1000, 1024]⟩

abbrev nBuf : Space → Nat
  | .hbm => 154
  | .vmem => 0
  | .smem => 0
  | _ => 0

abbrev hbmTy0_0 (i : Nat) : BufTy := match i % 128 with
  | 0 => ⟨S16x1000x80, .f32⟩
  | 1 => ⟨S16x1000x4, .f32⟩
  | 2 => ⟨S16x64, .i32⟩
  | 3 => ⟨S16x64x4, .f32⟩
  | 4 => ⟨S16000x80, .f32⟩
  | 5 => ⟨S16000x80, .f32⟩
  | 6 => ⟨S16000x80, .f32⟩
  | 7 => ⟨S_, .f32⟩
  | 8 => ⟨S16000x80, .f32⟩
  | 9 => ⟨S16000x80, .f32⟩
  | 10 => ⟨S_, .f32⟩
  | 11 => ⟨S16000x80, .f32⟩
  | 12 => ⟨S16000x80, .f32⟩
  | 13 => ⟨S16000x4, .f32⟩
  | 14 => ⟨S1024, .i32⟩
  | 15 => ⟨S1024x4, .f32⟩
  | 16 => ⟨S_, .f32⟩
  | 17 => ⟨S16000x80, .f32⟩
  | 18 => ⟨S16000x80, .f32⟩
  | 19 => ⟨S_, .f32⟩
  | 20 => ⟨S16000x80, .f32⟩
  | 21 => ⟨S16000x80, .f32⟩
  | 22 => ⟨S_, .f32⟩
  | 23 => ⟨S16000x80, .f32⟩
  | 24 => ⟨S16000x80, .f32⟩
  | 25 => ⟨S_, .f32⟩
  | 26 => ⟨S16000x80, .f32⟩
  | 27 => ⟨S16000x80, .f32⟩
  | 28 => ⟨S16000x80, .f32⟩
  | 29 => ⟨S16000x80, .f32⟩
  | 30 => ⟨S16000x80, .f32⟩
  | 31 => ⟨S_, .f32⟩
  | 32 => ⟨S16000x80, .f32⟩
  | 33 => ⟨S16000x80, .f32⟩
  | 34 => ⟨S_, .f32⟩
  | 35 => ⟨S16000x80, .f32⟩
  | 36 => ⟨S16000x80, .f32⟩
  | 37 => ⟨S_, .f32⟩
  | 38 => ⟨S16000x80, .f32⟩
  | 39 => ⟨S16000x80, .f32⟩
  | 40 => ⟨S_, .f32⟩
  | 41 => ⟨S16000x80, .f32⟩
  | 42 => ⟨S16000x80, .f32⟩
  | 43 => ⟨S16000x80, .f32⟩
  | 44 => ⟨S16000x80, .f32⟩
  | 45 => ⟨S16000x80, .f32⟩
  | 46 => ⟨S_, .i32⟩
  | 47 => ⟨S1024, .i32⟩
  | 48 => ⟨S1024, .i1⟩
  | 49 => ⟨S_, .i32⟩
  | 50 => ⟨S1024, .i32⟩
  | 51 => ⟨S1024, .i32⟩
  | 52 => ⟨S1024, .i32⟩
  | 53 => ⟨S1024x1, .i32⟩
  | 54 => ⟨S16000x1024, .f32⟩
  | 55 => ⟨S_, .i32⟩
  | 56 => ⟨S1024, .i32⟩
  | 57 => ⟨S1024, .i1⟩
  | 58 => ⟨S_, .i32⟩
  | 59 => ⟨S1024, .i32⟩
  | 60 => ⟨S1024, .i32⟩
  | 61 => ⟨S1024, .i32⟩
  | 62 => ⟨S1024x1, .i32⟩
  | 63 => ⟨S16000x1024, .f32⟩
  | 64 => ⟨S16000x1024, .f32⟩
  | 65 => ⟨S16000x1, .f32⟩
  | 66 => ⟨S16000, .f32⟩
  | 67 => ⟨S16000x1, .f32⟩
  | 68 => ⟨S16000, .f32⟩
  | 69 => ⟨S16000, .f32⟩
  | 70 => ⟨S16000x1, .f32⟩
  | 71 => ⟨S16000, .f32⟩
  | 72 => ⟨S16000x1, .f32⟩
  | 73 => ⟨S16000, .f32⟩
  | 74 => ⟨S16000, .f32⟩
  | 75 => ⟨S16000, .f32⟩
  | 76 => ⟨S1024x1, .f32⟩
  | 77 => ⟨S1024, .f32⟩
  | 78 => ⟨S1024x1, .f32⟩
  | 79 => ⟨S1024, .f32⟩
  | 80 => ⟨S1024, .f32⟩
  | 81 => ⟨S1024x1, .f32⟩
  | 82 => ⟨S1024, .f32⟩
  | 83 => ⟨S1024x1, .f32⟩
  | 84 => ⟨S1024, .f32⟩
  | 85 => ⟨S1024, .f32⟩
  | 86 => ⟨S1024, .f32⟩
  | 87 => ⟨S16000x2, .f32⟩
  | 88 => ⟨S16000x1x2, .f32⟩
  | 89 => ⟨S1024x2, .f32⟩
  | 90 => ⟨S1x1024x2, .f32⟩
  | 91 => ⟨S16000x1024x2, .f32⟩
  | 92 => ⟨S16000x1024x2, .f32⟩
  | 93 => ⟨S16000x1024x2, .f32⟩
  | 94 => ⟨S16000x2, .f32⟩
  | 95 => ⟨S16000x1x2, .f32⟩
  | 96 => ⟨S1024x2, .f32⟩
  | 97 => ⟨S1x1024x2, .f32⟩
  | 98 => ⟨S16000x1024x2, .f32⟩
  | 99 => ⟨S16000x1024x2, .f32⟩
  | 100 => ⟨S16000x1024x2, .f32⟩
  | 101 => ⟨S16000x1024x2, .f32⟩
  | 102 => ⟨S_, .f32⟩
  | 103 => ⟨S_, .f32⟩
  | 104 => ⟨S16000x1024x2, .f32⟩
  | 105 => ⟨S16000x1024x2, .f32⟩
  | 106 => ⟨S16000x1024x1, .f32⟩
  | 107 => ⟨S16000x1024, .f32⟩
  | 108 => ⟨S16000x1024x1, .f32⟩
  | 109 => ⟨S16000x1024, .f32⟩
  | 110 => ⟨S16000x1024, .f32⟩
  | 111 => ⟨S16000x1, .f32⟩
  | 112 => ⟨S1x1024, .f32⟩
  | 113 => ⟨S16000x1024, .f32⟩
  | 114 => ⟨S16000x1024, .f32⟩
  | 115 => ⟨S16000x1024, .f32⟩
  | 116 => ⟨S16000x1024, .f32⟩
  | 117 => ⟨S16000x1024, .f32⟩
  | 118 => ⟨S16000x2, .f32⟩
  | 119 => ⟨S16000x1x2, .f32⟩
  | 120 => ⟨S1024x2, .f32⟩
  | 121 => ⟨S1x1024x2, .f32⟩
  | 122 => ⟨S16000x1024x2, .f32⟩
  | 123 => ⟨S16000x1024x2, .f32⟩
  | 124 => ⟨S16000x1024x2, .f32⟩
  | 125 => ⟨S16000x2, .f32⟩
  | 126 => ⟨S16000x1x2, .f32⟩
  | 127 => ⟨S1024x2, .f32⟩
  | _ => ⟨S16x1000x80, .f32⟩

abbrev hbmTy0_1 (i : Nat) : BufTy := match i % 128 with
  | 0 => ⟨S1x1024x2, .f32⟩
  | 1 => ⟨S16000x1024x2, .f32⟩
  | 2 => ⟨S16000x1024x2, .f32⟩
  | 3 => ⟨S16000x1024x2, .f32⟩
  | 4 => ⟨S16000x1024x2, .f32⟩
  | 5 => ⟨S_, .f32⟩
  | 6 => ⟨S_, .f32⟩
  | 7 => ⟨S16000x1024x2, .f32⟩
  | 8 => ⟨S16000x1024x2, .f32⟩
  | 9 => ⟨S16000x1024x1, .f32⟩
  | 10 => ⟨S16000x1024, .f32⟩
  | 11 => ⟨S16000x1024x1, .f32⟩
  | 12 => ⟨S16000x1024, .f32⟩
  | 13 => ⟨S16000x1024, .f32⟩
  | 14 => ⟨S16000x1024, .f32⟩
  | 15 => ⟨S16000x1024, .f32⟩
  | 16 => ⟨S16000x1024, .f32⟩
  | 17 => ⟨S16000x1024, .f32⟩
  | 18 => ⟨S_, .f32⟩
  | 19 => ⟨S16000x1024, .f32⟩
  | 20 => ⟨S16000x1024, .f32⟩
  | 21 => ⟨S_, .f32⟩
  | 22 => ⟨S16000x1024, .f32⟩
  | 23 => ⟨S16000x1024, .f32⟩
  | 24 => ⟨S16000x1024, .f32⟩
  | 25 => ⟨S16x1000x1024, .f32⟩
  | _ => ⟨S16x1000x80, .f32⟩

abbrev hbmTy (i : Nat) : BufTy := match i / 128 with
  | 0 => hbmTy0_0 i
  | 1 => hbmTy0_1 i
  | _ => ⟨S16x1000x80, .f32⟩

abbrev bufTy : (tb : Table) → Fin (tcTables nBuf tb) → BufTy
  | .hbm, ⟨i, _⟩ => hbmTy i
  | _, _ => ⟨S16x1000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_c_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_12 : Ref sig .tc := ⟨.hbm, 102, rfl⟩
abbrev main_call0_v0 : Ref sig .tc := ⟨.hbm, 103, rfl⟩
abbrev main_call0_v1 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_13 : Ref sig .tc := ⟨.hbm, 133, rfl⟩
abbrev main_call1_v0 : Ref sig .tc := ⟨.hbm, 134, rfl⟩
abbrev main_call1_v1 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_14 : Ref sig .tc := ⟨.hbm, 146, rfl⟩
abbrev main_v122 : Ref sig .tc := ⟨.hbm, 147, rfl⟩
abbrev main_v123 : Ref sig .tc := ⟨.hbm, 148, rfl⟩
abbrev main_cst_15 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩

abbrev nD : Nat := 1
abbrev τ : Topo := Topo.v7x

variable {F : FTy → Type} [FloatOps F]

class Facts₀ : Prop where
  shapeCasts_S16x1000x80_S16000x80 : S16x1000x80.ShapeCasts S16000x80
  bcast_S_S16000x80 : S_.BroadcastsInDim S16000x80 (![] : Fin 0 → Fin S16000x80.rank)
  shapeCasts_S16x1000x4_S16000x4 : S16x1000x4.ShapeCasts S16000x4
  shapeCasts_S16x64_S1024 : S16x64.ShapeCasts S1024
  shapeCasts_S16x64x4_S1024x4 : S16x64x4.ShapeCasts S1024x4
  bcast_S_S1024 : S_.BroadcastsInDim S1024 (![] : Fin 0 → Fin S1024.rank)
  bcast_S1024_S1024x1_0 : S1024.BroadcastsInDim S1024x1 (![0] : Fin 1 → Fin S1024x1.rank)
  slices_S16000x4_S16000x1_0_2 : S16000x4.Slices ![0, 2] S16000x1
  shapeCasts_S16000x1_S16000 : S16000x1.ShapeCasts S16000
  slices_S16000x4_S16000x1_0_0 : S16000x4.Slices ![0, 0] S16000x1
  slices_S16000x4_S16000x1_0_3 : S16000x4.Slices ![0, 3] S16000x1
  slices_S16000x4_S16000x1_0_1 : S16000x4.Slices ![0, 1] S16000x1
  slices_S1024x4_S1024x1_0_2 : S1024x4.Slices ![0, 2] S1024x1
  shapeCasts_S1024x1_S1024 : S1024x1.ShapeCasts S1024
  slices_S1024x4_S1024x1_0_0 : S1024x4.Slices ![0, 0] S1024x1
  slices_S1024x4_S1024x1_0_3 : S1024x4.Slices ![0, 3] S1024x1
  slices_S1024x4_S1024x1_0_1 : S1024x4.Slices ![0, 1] S1024x1
  slices_S16000x4_S16000x2_0_0 : S16000x4.Slices ![0, 0] S16000x2
  bcast_S16000x2_S16000x1x2_0_2 : S16000x2.BroadcastsInDim S16000x1x2 (![0, 2] : Fin 2 → Fin S16000x1x2.rank)
  slices_S1024x4_S1024x2_0_0 : S1024x4.Slices ![0, 0] S1024x2
  bcast_S1024x2_S1x1024x2_1_2 : S1024x2.BroadcastsInDim S1x1024x2 (![1, 2] : Fin 2 → Fin S1x1024x2.rank)
  bcast_S16000x1x2_S16000x1024x2_0_1_2 : S16000x1x2.BroadcastsInDim S16000x1024x2 (![0, 1, 2] : Fin 3 → Fin S16000x1024x2.rank)
  bcast_S1x1024x2_S16000x1024x2_0_1_2 : S1x1024x2.BroadcastsInDim S16000x1024x2 (![0, 1, 2] : Fin 3 → Fin S16000x1024x2.rank)
  slices_S16000x4_S16000x2_0_2 : S16000x4.Slices ![0, 2] S16000x2
  slices_S1024x4_S1024x2_0_2 : S1024x4.Slices ![0, 2] S1024x2
  bcast_S_S16000x1024x2 : S_.BroadcastsInDim S16000x1024x2 (![] : Fin 0 → Fin S16000x1024x2.rank)
  slices_S16000x1024x2_S16000x1024x1_0_0_0 : S16000x1024x2.Slices ![0, 0, 0] S16000x1024x1
  shapeCasts_S16000x1024x1_S16000x1024 : S16000x1024x1.ShapeCasts S16000x1024
  slices_S16000x1024x2_S16000x1024x1_0_0_1 : S16000x1024x2.Slices ![0, 0, 1] S16000x1024x1
  bcast_S16000_S16000x1_0 : S16000.BroadcastsInDim S16000x1 (![0] : Fin 1 → Fin S16000x1.rank)
  bcast_S1024_S1x1024_1 : S1024.BroadcastsInDim S1x1024 (![1] : Fin 1 → Fin S1x1024.rank)
  bcast_S16000x1_S16000x1024_0_1 : S16000x1.BroadcastsInDim S16000x1024 (![0, 1] : Fin 2 → Fin S16000x1024.rank)
  bcast_S1x1024_S16000x1024_0_1 : S1x1024.BroadcastsInDim S16000x1024 (![0, 1] : Fin 2 → Fin S16000x1024.rank)
  bcast_S_S16000x1024 : S_.BroadcastsInDim S16000x1024 (![] : Fin 0 → Fin S16000x1024.rank)
  shapeCasts_S16000x1024_S16x1000x1024 : S16000x1024.ShapeCasts S16x1000x1024
  gather_S16000x80_S1024x1_S16000x1024_0_1_n_n_1_1_160001_wf : GatherDims.WF S16000x80 S1024x1 S16000x1024 [0] [1] [] [1] [] 1 ![16000, 1]

variable [Facts₀]

def gather_S16000x80_S1024x1_S16000x1024_0_1_n_n_1_1_160001 : GatherDims S16000x80 S1024x1 S16000x1024 where
  offsetDims := [0]
  collapsedSliceDims := [1]
  operandBatchingDims := []
  startIndicesBatchingDims := []
  startIndexMap := [1]
  indexVectorDim := 1
  sliceSizes := ![16000, 1]
  wf := gather_S16000x80_S1024x1_S16000x1024_0_1_n_n_1_1_160001_wf

class Facts : Prop extends Facts₀ where

variable [Facts]
-- ==== Proof.Spec.lean ====
/-
  The matching cost of one predicted box against one target box, as a function of eight extended reals, and the
  two small laws that join the two programs.

  A box is (x₁, y₁, x₂, y₂).  For a predicted box a and a target box b:
    overlap = max 0 (min a₂ b₂ − max a₀ b₀) · max 0 (min a₃ b₃ − max a₁ b₁)
    joined  = (area a + area b) − overlap
    hull    = max 0 (max a₂ b₂ − min a₀ b₀) · max 0 (max a₃ b₃ − min a₁ b₁)
    giou    = overlap / joined − (hull − joined) / hull
  Both programs compute exactly this expression, operation for operation, so no law of arithmetic is needed for it.
  What differs is the class term: one program takes the entry of a table at a label, the other multiplies the
  table's row with the label's indicator column and sums; and one negates giou where the other subtracts it from 0.
-/
import Idealize.ShloMosaic.Lib.ValueIdx
import Idealize.ShloMosaic.PureOps.Ideal
import Idealize.ShloMosaic.Lib.IdealHost

noncomputable section

namespace Cert.BoxCost

open Idealize.ShloMosaic

/-- The word of 0.0 and the word of 1.0, at their exact values. -/
abbrev zw : EReal := Ideal.ofBits .f32 0x00000000#32
abbrev ow : EReal := Ideal.ofBits .f32 0x3F800000#32

/-- Area of the intersection of two boxes (0 when they do not meet). -/
def overlap (a0 a1 a2 a3 b0 b1 b2 b3 : EReal) : EReal :=
  max zw (min a2 b2 - max a0 b0) * max zw (min a3 b3 - max a1 b1)

/-- Area of the union of two boxes. -/
def joined (a0 a1 a2 a3 b0 b1 b2 b3 : EReal) : EReal :=
  ((a2 - a0) * (a3 - a1) + (b2 - b0) * (b3 - b1)) - overlap a0 a1 a2 a3 b0 b1 b2 b3

/-- Area of the smallest box enclosing both. -/
def hull (a0 a1 a2 a3 b0 b1 b2 b3 : EReal) : EReal :=
  max zw (max a2 b2 - min a0 b0) * max zw (max a3 b3 - min a1 b1)

/-- Generalized intersection over union. -/
def giou (a0 a1 a2 a3 b0 b1 b2 b3 : EReal) : EReal :=
  Ideal.div (overlap a0 a1 a2 a3 b0 b1 b2 b3) (joined a0 a1 a2 a3 b0 b1 b2 b3)
    - Ideal.div (hull a0 a1 a2 a3 b0 b1 b2 b3 - joined a0 a1 a2 a3 b0 b1 b2 b3) (hull a0 a1 a2 a3 b0 b1 b2 b3)

/-- Subtracting from the word of zero is negating, on every extended real. -/
theorem zw_sub (x : EReal) : zw - x = -x := by
  show Ideal.ofBits .f32 0x00000000#32 - x = -x
  rw [Ideal.ofBits_zero_f32, zero_sub]

/-- A row times an indicator column: the sum keeps the one entry the indicator marks.  On the extended reals
    0 · x = 0 for every x, so nothing is asked of the row. -/
theorem sum_mul_indicator {K : Nat} (a : Fin K → EReal) (e : Fin K → EReal) (c : Fin K)
    (he : ∀ k, e k = if k = c then 1 else 0) : ∑ k : Fin K, a k * e k = a c := by
  rw [Finset.sum_eq_single c]
  · rw [he, if_pos rfl, mul_one]
  · intro k _ hk
    rw [he, if_neg hk, mul_zero]
  · intro h
    exact absurd (Finset.mem_univ c) h

end Cert.BoxCost

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.KernelPay.lean ====
/-
  What one grid point's body stores, read at row r and column j of its [400 × 1024] block.

  The body reads a [400 × 4] block of predicted boxes (one box per row), the [4 × 1024] table of target boxes
  (one box per column), a [400 × 80] block of class weights and the [80 × 1024] table of label indicators.  At
  (r, j) it stores  1 · Σₖ weights(r, k) · indicator(k, j)  +  1 · (0 − giou(box r, box j)).
  Everything but the product is pointwise once the column of a box block and the row of the box table are read
  through their slices and broadcasts; changing the float format of the product's operands is the identity at the
  exact values.
-/
import proofs.«427540_j7267084665334_1_alg».proof.Proof.Gen.KernelIdeal.Frame
import proofs.«427540_j7267084665334_1_alg».proof.Proof.Spec
import proofs.«427540_j7267084665334_1_alg».proof.Proof.LibPlainDot
import Idealize.ShloMosaic.Lib.Pipeline.Value
import Idealize.ShloMosaic.Lib.ValueIdx

noncomputable section

namespace Cert.KernelIdeal.Pay

open Cert.KernelIdeal Cert.KernelIdeal.Gen Idealize.ShloMosaic Idealize.ShloMosaic.ValueIdx Cert.BoxCost

/-- A [400 × 1] column laid along the columns of the block reads, at (r, j), the column at r. -/
theorem bcol_apply (v : FVec Ideal S400x1 .f32) (r : Fin 400) (j : Fin 1024) :
    broadcastTo S400x1024 v broadcasts_S400x1_S400x1024 (ix2 r j) = v (ix2 r 0) := by
  refine broadcastTo_apply v _ _ (ix2 r 0) fun a => ?_
  match a with
  | ⟨0, _⟩ => rfl
  | ⟨1, _⟩ => rfl

/-- A [1 × 1024] row laid down the rows of the block reads, at (r, j), the row at j. -/
theorem brow_apply (v : FVec Ideal S1x1024 .f32) (r : Fin 400) (j : Fin 1024) :
    broadcastTo S400x1024 v broadcasts_S1x1024_S400x1024 (ix2 r j) = v (ix2 0 j) := by
  refine broadcastTo_apply v _ _ (ix2 0 j) fun a => ?_
  match a with
  | ⟨0, _⟩ => rfl
  | ⟨1, _⟩ => rfl

/-! Coordinate a of the predicted box in row r, and coordinate a of the target box in column j. -/

theorem pay4_apply (x0 : Vec Ideal S400x4 .f32) (r : Fin 400) : k0_pay4 x0 (ix2 r 0) = x0 (ix2 r 0) := by
  unfold k0_pay4 k0_pay2
  rw [shapeCast_self]
  refine extractStridedSlice_apply _ _ _ _ (ix2 r 0) fun a => ?_
  match a with
  | ⟨0, _⟩ => exact (Nat.zero_add _).symm
  | ⟨1, _⟩ => rfl

theorem pay5_apply (x0 : Vec Ideal S400x4 .f32) (r : Fin 400) : k0_pay5 x0 (ix2 r 0) = x0 (ix2 r 1) := by
  unfold k0_pay5 k0_pay2
  rw [shapeCast_self]
  refine extractStridedSlice_apply _ _ _ _ (ix2 r 1) fun a => ?_
  match a with
  | ⟨0, _⟩ => exact (Nat.zero_add _).symm
  | ⟨1, _⟩ => rfl

theorem pay6_apply (x0 : Vec Ideal S400x4 .f32) (r : Fin 400) : k0_pay6 x0 (ix2 r 0) = x0 (ix2 r 2) := by
  unfold k0_pay6 k0_pay2
  rw [shapeCast_self]
  refine extractStridedSlice_apply _ _ _ _ (ix2 r 2) fun a => ?_
  match a with
  | ⟨0, _⟩ => exact (Nat.zero_add _).symm
  | ⟨1, _⟩ => rfl

theorem pay7_apply (x0 : Vec Ideal S400x4 .f32) (r : Fin 400) : k0_pay7 x0 (ix2 r 0) = x0 (ix2 r 3) := by
  unfold k0_pay7 k0_pay2
  rw [shapeCast_self]
  refine extractStridedSlice_apply _ _ _ _ (ix2 r 3) fun a => ?_
  match a with
  | ⟨0, _⟩ => exact (Nat.zero_add _).symm
  | ⟨1, _⟩ => rfl

theorem pay8_apply (x2 : Vec Ideal S4x1024 .f32) (j : Fin 1024) : k0_pay8 x2 (ix2 0 j) = x2 (ix2 0 j) := by
  unfold k0_pay8 k0_pay3
  rw [shapeCast_self]
  refine extractStridedSlice_apply _ _ _ _ (ix2 0 j) fun a => ?_
  match a with
  | ⟨0, _⟩ => rfl
  | ⟨1, _⟩ => exact (Nat.zero_add _).symm

theorem pay9_apply (x2 : Vec Ideal S4x1024 .f32) (j : Fin 1024) : k0_pay9 x2 (ix2 0 j) = x2 (ix2 1 j) := by
  unfold k0_pay9 k0_pay3
  rw [shapeCast_self]
  refine extractStridedSlice_apply _ _ _ _ (ix2 1 j) fun a => ?_
  match a with
  | ⟨0, _⟩ => rfl
  | ⟨1, _⟩ => exact (Nat.zero_add _).symm

theorem pay10_apply (x2 : Vec Ideal S4x1024 .f32) (j : Fin 1024) : k0_pay10 x2 (ix2 0 j) = x2 (ix2 2 j) := by
  unfold k0_pay10 k0_pay3
  rw [shapeCast_self]
  refine extractStridedSlice_apply _ _ _ _ (ix2 2 j) fun a => ?_
  match a with
  | ⟨0, _⟩ => rfl
  | ⟨1, _⟩ => exact (Nat.zero_add _).symm

theorem pay11_apply (x2 : Vec Ideal S4x1024 .f32) (j : Fin 1024) : k0_pay11 x2 (ix2 0 j) = x2 (ix2 3 j) := by
  unfold k0_pay11 k0_pay3
  rw [shapeCast_self]
  refine extractStridedSlice_apply _ _ _ _ (ix2 3 j) fun a => ?_
  match a with
  | ⟨0, _⟩ => rfl
  | ⟨1, _⟩ => exact (Nat.zero_add _).symm

section Entry

variable (x0 : Vec Ideal S400x4 .f32) (x2 : Vec Ideal S4x1024 .f32) (r : Fin 400) (j : Fin 1024)

/-- The intersection's area at (r, j). -/
theorem pay12_apply : k0_pay12 x0 x2 (ix2 r j)
    = overlap (x0 (ix2 r 0)) (x0 (ix2 r 1)) (x0 (ix2 r 2)) (x0 (ix2 r 3)) (x2 (ix2 0 j)) (x2 (ix2 1 j)) (x2 (ix2 2 j)) (x2 (ix2 3 j)) := by
  unfold k0_pay12 overlap
  simp only [mulf_apply, subf_apply, maximumf_apply, minimumf_apply, broadcast_apply, bcol_apply, brow_apply,
    pay4_apply, pay5_apply, pay6_apply, pay7_apply, pay8_apply, pay9_apply, pay10_apply, pay11_apply]
  rfl

/-- The union's area at (r, j). -/
theorem pay13_apply : k0_pay13 x0 x2 (ix2 r j)
    = joined (x0 (ix2 r 0)) (x0 (ix2 r 1)) (x0 (ix2 r 2)) (x0 (ix2 r 3)) (x2 (ix2 0 j)) (x2 (ix2 1 j)) (x2 (ix2 2 j)) (x2 (ix2 3 j)) := by
  unfold k0_pay13 joined
  simp only [mulf_apply, subf_apply, addf_apply, bcol_apply, brow_apply, pay12_apply,
    pay4_apply, pay5_apply, pay6_apply, pay7_apply, pay8_apply, pay9_apply, pay10_apply, pay11_apply]

/-- Intersection over union at (r, j). -/
theorem pay14_apply : k0_pay14 x0 x2 (ix2 r j)
    = Ideal.div (overlap (x0 (ix2 r 0)) (x0 (ix2 r 1)) (x0 (ix2 r 2)) (x0 (ix2 r 3)) (x2 (ix2 0 j)) (x2 (ix2 1 j)) (x2 (ix2 2 j)) (x2 (ix2 3 j)))
        (joined (x0 (ix2 r 0)) (x0 (ix2 r 1)) (x0 (ix2 r 2)) (x0 (ix2 r 3)) (x2 (ix2 0 j)) (x2 (ix2 1 j)) (x2 (ix2 2 j)) (x2 (ix2 3 j))) := by
  unfold k0_pay14
  simp only [divf_apply, pay12_apply, pay13_apply]

/-- The enclosing box's left edge, bottom edge and right edge at (r, j), and the two top edges it is the larger of. -/
theorem pay15_apply : k0_pay15 x0 x2 (ix2 r j) = min (x0 (ix2 r 0)) (x2 (ix2 0 j)) := by
  unfold k0_pay15
  simp only [minimumf_apply, bcol_apply, brow_apply, pay4_apply, pay8_apply]

theorem pay16_apply : k0_pay16 x0 x2 (ix2 r j) = min (x0 (ix2 r 1)) (x2 (ix2 1 j)) := by
  unfold k0_pay16
  simp only [minimumf_apply, bcol_apply, brow_apply, pay5_apply, pay9_apply]

theorem pay17_apply : k0_pay17 x0 x2 (ix2 r j) = max (x0 (ix2 r 2)) (x2 (ix2 2 j)) := by
  unfold k0_pay17
  simp only [maximumf_apply, bcol_apply, brow_apply, pay6_apply, pay10_apply]

theorem pay18_apply : k0_pay18 x0 (ix2 r j) = x0 (ix2 r 3) := by
  unfold k0_pay18
  simp only [bcol_apply, pay7_apply]

theorem pay19_apply : k0_pay19 x2 (ix2 r j) = x2 (ix2 3 j) := by
  unfold k0_pay19
  simp only [brow_apply, pay11_apply]

end Entry

/-- The printed dimension numbers of the body's product are the plain ones: rows by contraction times contraction
    by columns. -/
theorem dot_eq_plain : dot_S400x80_S80x1024_S400x1024_1_0_0_1_n_n = DotDims.plain 400 80 1024 := rfl

/-- THE STORED VALUE at (r, j): the class term as a sum over the 80 classes, the box term as 0 − giou. -/
theorem pay1_apply (x0 : Vec Ideal S400x4 .f32) (x1 : Vec Ideal S400x80 .f32) (x2 : Vec Ideal S4x1024 .f32)
    (x3 : Vec Ideal S80x1024 .f32) (r : Fin 400) (j : Fin 1024) :
    k0_pay1 (k0_pay13 x0 x2) (k0_pay14 x0 x2) (k0_pay15 x0 x2) (k0_pay16 x0 x2) (k0_pay17 x0 x2) (k0_pay18 x0)
        (k0_pay19 x2) x1 x3 (ix2 r j)
      = ow * (∑ k : Fin 80, x1 (ix2 r k) * x3 (ix2 k j))
        + ow * (zw - giou (x0 (ix2 r 0)) (x0 (ix2 r 1)) (x0 (ix2 r 2)) (x0 (ix2 r 3))
                          (x2 (ix2 0 j)) (x2 (ix2 1 j)) (x2 (ix2 2 j)) (x2 (ix2 3 j))) := by
  unfold k0_pay1 giou hull
  simp only [shapeCast_self, dot_eq_plain, addf_apply, mulf_apply, subf_apply, divf_apply, maximumf_apply,
    broadcast_apply, PlainDot.matmul_zero_plain_apply, truncf_apply,
    pay13_apply, pay14_apply, pay15_apply, pay16_apply, pay17_apply, pay18_apply, pay19_apply]
  rfl

theorem hz : (![0, 0] : Fin 2 → Nat) = fun _ => 0 := funext fun a => by fin_cases a <;> rfl

/-- The block the body leaves in the output's buffer, at (r, j). -/
theorem out_apply (x0 : Vec Ideal S400x4 .f32) (x1 : Vec Ideal S400x80 .f32) (x2 : Vec Ideal S4x1024 .f32)
    (x3 : Vec Ideal S80x1024 .f32) (r : Fin 400) (j : Fin 1024) :
    out0_4 x0 x1 x2 x3 (ix2 r j)
      = ow * (∑ k : Fin 80, x1 (ix2 r k) * x3 (ix2 k j))
        + ow * (zw - giou (x0 (ix2 r 0)) (x0 (ix2 r 1)) (x0 (ix2 r 2)) (x0 (ix2 r 3))
                          (x2 (ix2 0 j)) (x2 (ix2 1 j)) (x2 (ix2 2 j)) (x2 (ix2 3 j))) := by
  unfold out0_4
  rw [View.canon_unit_zero hz]
  simp only [View.ld_unit_zero (S := S400x4) hz, View.ld_unit_zero (S := S4x1024) hz,
    View.ld_unit_zero (S := S400x80) hz, View.ld_unit_zero (S := S80x1024) hz]
  exact pay1_apply x0 x1 x2 x3 r j

end Cert.KernelIdeal.Pay

end
-- ==== Proof.LibColGather.lean ====
/-
  Taking entries along the LAST axis of an array with the start index clamped: the gather that x[..., idx] of an
  [C × N] or an [A × B × N] array lowers to, read at an entry, for an ARBITRARY start index.

  With the last axis collapsed and start-indexed and every other axis an offset axis of full width, entry (c, v) of the
  result of the two-axis form is the operand's entry (c, col), and entry (y, x, v) of the result of the three-axis form
  is the operand's entry (y, x, col), where col is start index v read as a signed integer and clamped to [0, N − 1]:
  a negative start index reads column 0, one past the end reads the last column. When the start index read signed is
  a column k < N the clamp is the identity and the entry read is column k itself.
-/
import Idealize.ShloMosaic.Lib.ValueIdx

noncomputable section

namespace Cert.LibColGather

open Idealize.ShloMosaic Idealize.ShloMosaic.ValueIdx

/-- Entry (c, v) of a gather along the last of two axes is the operand's entry (c, col), col being start index v read
    signed and clamped into [0, N − 1]. -/
theorem gather_cols_clamp_apply {α : Type} {C N n w : Nat}
    (d : GatherDims ⟨2, ![C, N]⟩ ⟨2, ![n, 1]⟩ ⟨2, ![C, n]⟩)
    (hoff : d.offsetDims = [0]) (hcol : d.collapsedSliceDims = [1]) (hob : d.operandBatchingDims = [])
    (hsb : d.startIndicesBatchingDims = []) (hmap : d.startIndexMap = [1]) (hiv : d.indexVectorDim = 1)
    (hsl : d.sliceSizes = ![C, 1])
    (x : (⟨2, ![C, N]⟩ : Shape).Idx → α) (idx : IVec ⟨2, ![n, 1]⟩ w) (c : Fin C) (v : Fin n) (hN : 0 < N) :
    Host.gather d x idx (ix2 c v)
      = x (ix2 c (⟨min (idx (ix2 v (0 : Fin 1))).toInt.toNat (N - 1), by omega⟩ : Fin N)) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the first axis: an offset axis of full width, no start, so the operand's coordinate is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl
  | ⟨1, _⟩ =>
    -- the last axis: collapsed and start-indexed, so the operand's column is the clamped start index alone
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (v, 0): v from the result's batch axis, 0 on the index vector's axis
    generalize hX : GatherDims.siIdx _ (ix2 c v) _ = X
    have hX' : X = ix2 v (0 : Fin 1) := by
      rw [← hX]
      funext b
      match b with
      | ⟨0, _⟩ => rfl
      | ⟨1, _⟩ => rfl
    rw [hX']
    rfl

/-- Entry (y, x, v) of a gather along the last of three axes is the operand's entry (y, x, col), col being start
    index v read signed and clamped into [0, N − 1]. -/
theorem gather_cols3_clamp_apply {α : Type} {A B N n w : Nat}
    (d : GatherDims ⟨3, ![A, B, N]⟩ ⟨2, ![n, 1]⟩ ⟨3, ![A, B, n]⟩)
    (hoff : d.offsetDims = [0, 1]) (hcol : d.collapsedSliceDims = [2]) (hob : d.operandBatchingDims = [])
    (hsb : d.startIndicesBatchingDims = []) (hmap : d.startIndexMap = [2]) (hiv : d.indexVectorDim = 1)
    (hsl : d.sliceSizes = ![A, B, 1])
    (x : (⟨3, ![A, B, N]⟩ : Shape).Idx → α) (idx : IVec ⟨2, ![n, 1]⟩ w) (y : Fin A) (z : Fin B) (v : Fin n)
    (hN : 0 < N) :
    Host.gather d x idx (ix3 y z v)
      = x (ix3 y z (⟨min (idx (ix2 v (0 : Fin 1))).toInt.toNat (N - 1), by omega⟩ : Fin N)) := by
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the first axis: the first offset axis, of full width
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl
  | ⟨1, _⟩ =>
    -- the second axis: the second offset axis, of full width
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl
  | ⟨2, _⟩ =>
    -- the last axis: collapsed and start-indexed
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    generalize hX : GatherDims.siIdx _ (ix3 y z v) _ = X
    have hX' : X = ix2 v (0 : Fin 1) := by
      rw [← hX]
      funext b
      match b with
      | ⟨0, _⟩ => rfl
      | ⟨1, _⟩ => rfl
    rw [hX']
    rfl

/-- The clamp is the identity on a start index that, read signed, is a column k < N. -/
theorem clamp_eq_of_toInt {N w : Nat} (i : BitVec w) (k : Fin N) (hk : i.toInt = (k.val : Int)) :
    min i.toInt.toNat (N - 1) = k.val := by
  have := k.isLt
  rw [hk, Int.toNat_natCast]
  omega

/-- Two axes, start index in range: entry (c, v) is the operand's entry (c, k), k the start index read signed. -/
theorem gather_cols_apply_of_toInt {α : Type} {C N n w : Nat}
    (d : GatherDims ⟨2, ![C, N]⟩ ⟨2, ![n, 1]⟩ ⟨2, ![C, n]⟩)
    (hoff : d.offsetDims = [0]) (hcol : d.collapsedSliceDims = [1]) (hob : d.operandBatchingDims = [])
    (hsb : d.startIndicesBatchingDims = []) (hmap : d.startIndexMap = [1]) (hiv : d.indexVectorDim = 1)
    (hsl : d.sliceSizes = ![C, 1])
    (x : (⟨2, ![C, N]⟩ : Shape).Idx → α) (idx : IVec ⟨2, ![n, 1]⟩ w) (c : Fin C) (v : Fin n) (k : Fin N)
    (hk : (idx (ix2 v (0 : Fin 1))).toInt = (k.val : Int)) :
    Host.gather d x idx (ix2 c v) = x (ix2 c k) := by
  rw [gather_cols_clamp_apply d hoff hcol hob hsb hmap hiv hsl x idx c v (Nat.pos_of_ne_zero fun e => by
    have := k.isLt; omega)]
  exact congrArg (fun q => x (ix2 c q)) (Fin.ext (clamp_eq_of_toInt _ k hk))

/-- Three axes, start index in range: entry (y, x, v) is the operand's entry (y, x, k), k the start index read
    signed. -/
theorem gather_cols3_apply_of_toInt {α : Type} {A B N n w : Nat}
    (d : GatherDims ⟨3, ![A, B, N]⟩ ⟨2, ![n, 1]⟩ ⟨3, ![A, B, n]⟩)
    (hoff : d.offsetDims = [0, 1]) (hcol : d.collapsedSliceDims = [2]) (hob : d.operandBatchingDims = [])
    (hsb : d.startIndicesBatchingDims = []) (hmap : d.startIndexMap = [2]) (hiv : d.indexVectorDim = 1)
    (hsl : d.sliceSizes = ![A, B, 1])
    (x : (⟨3, ![A, B, N]⟩ : Shape).Idx → α) (idx : IVec ⟨2, ![n, 1]⟩ w) (y : Fin A) (z : Fin B) (v : Fin n)
    (k : Fin N) (hk : (idx (ix2 v (0 : Fin 1))).toInt = (k.val : Int)) :
    Host.gather d x idx (ix3 y z v) = x (ix3 y z k) := by
  rw [gather_cols3_clamp_apply d hoff hcol hob hsb hmap hiv hsl x idx y z v (Nat.pos_of_ne_zero fun e => by
    have := k.isLt; omega)]
  exact congrArg (fun q => x (ix3 y z q)) (Fin.ext (clamp_eq_of_toInt _ k hk))

end Cert.LibColGather

end
-- ==== Proof.RefClass.lean ====
/-
  The class term of the reference, read at an entry.

  The reference takes, for query n and target j, the positive-weight table's entry at (n, label j) minus the
  negative-weight table's entry there, times 1.  Indexing by a label lowers to: add 80 to a negative label, then
  gather along the class axis with the index clamped.  For a label in [0, 80) nothing is added and nothing is
  clamped, so the entry read is the one at the label itself.
-/
import proofs.«427540_j7267084665334_1_alg».proof.Proof.Gen.ReferenceIdeal.Read
import proofs.«427540_j7267084665334_1_alg».proof.Proof.Spec
import proofs.«427540_j7267084665334_1_alg».proof.Proof.LibColGather
import Idealize.ShloMosaic.Lib.ValueIdx
import Idealize.ShloMosaic.Lib.Pipeline.Value
import Idealize.ShloMosaic.Lib.StableHlo.Predicate

noncomputable section

namespace Cert.ReferenceIdeal.RefClass

open Cert.ReferenceIdeal Cert.ReferenceIdeal.Read Idealize.ShloMosaic Idealize.ShloMosaic.ValueIdx Cert.BoxCost

/-- A word below 80 is not negative read signed: the "add 80 if negative" step keeps it. -/
theorem keep_label (w : BitVec 32) (hw : w.toNat < 80) :
    Scalar.select (IntOp.cmpi .slt w 0#32) (IntOp.addi w 80#32) w = w := by
  have h0 : IntOp.cmpi .slt w 0#32 = 0#1 :=
    eq_zero_of_ne_one fun h1 => by
      have := (StableHlo.Predicate.slt_iff_toNat (a := w) (b := 0#32) (by omega) (by decide)).1 h1
      simp at this
  rw [h0, select_zero]

/-- A word below 80 read signed is its value. -/
theorem toInt_label (w : BitVec 32) (hw : w.toNat < 80) : w.toInt = (w.toNat : Int) :=
  StableHlo.Predicate.toInt_eq_toNat_of_lt (by omega)

variable (x0 : (⟨S16x1000x80, .f32⟩ : BufTy).Contents (Elt Ideal)) (x2 : (⟨S16x64, .i32⟩ : BufTy).Contents (Elt Ideal))

/-- Target j's label, as a class, when every label is in range. -/
def lab (hlab : ∀ i, (x2 i).toNat < 80) (j : Fin 1024) : Fin 80 :=
  ⟨(val_main_v8 (F := Ideal) x2 (ix1 j)).toNat, by rw [val_main_v8_apply]; exact hlab _⟩

theorem lab_val (hlab : ∀ i, (x2 i).toNat < 80) (j : Fin 1024) :
    (val_main_v8 (F := Ideal) x2 (ix1 j)).toNat = (lab x2 hlab j).val := rfl

/-- The start index the first gather reads for target j is the label itself. -/
theorem start_pos (hlab : ∀ i, (x2 i).toNat < 80) (j : Fin 1024) :
    (val_main_v37 (F := Ideal) x2 (ix2 j (0 : Fin 1))).toInt = ((lab x2 hlab j).val : Int) := by
  rw [val_main_v37_apply, val_main_v36_apply, val_main_v33_apply, val_main_v35_apply, val_main_v32_apply,
    val_main_v34_apply, val_main_c_apply, val_main_c_9_apply]
  have e : idx_main_v37 (ix2 j (0 : Fin 1)) = ix1 j := funext fun a => by
    match a with
    | ⟨0, _⟩ => rfl
  rw [e, keep_label (val_main_v8 (F := Ideal) x2 (ix1 j)) (lab x2 hlab j).isLt,
    toInt_label (val_main_v8 (F := Ideal) x2 (ix1 j)) (lab x2 hlab j).isLt]
  rfl

/-- The same for the second gather. -/
theorem start_neg (hlab : ∀ i, (x2 i).toNat < 80) (j : Fin 1024) :
    (val_main_v44 (F := Ideal) x2 (ix2 j (0 : Fin 1))).toInt = ((lab x2 hlab j).val : Int) := by
  rw [val_main_v44_apply, val_main_v43_apply, val_main_v40_apply, val_main_v42_apply, val_main_v39_apply,
    val_main_v41_apply, val_main_c_10_apply, val_main_c_11_apply]
  have e : idx_main_v44 (ix2 j (0 : Fin 1)) = ix1 j := funext fun a => by
    match a with
    | ⟨0, _⟩ => rfl
  rw [e, keep_label (val_main_v8 (F := Ideal) x2 (ix1 j)) (lab x2 hlab j).isLt,
    toInt_label (val_main_v8 (F := Ideal) x2 (ix1 j)) (lab x2 hlab j).isLt]
  rfl

/-- THE CLASS TERM at (n, j): 1 · (positive weight − negative weight) of query n at target j's label. -/
theorem class_apply (hlab : ∀ i, (x2 i).toNat < 80) (n : Fin 16000) (j : Fin 1024) :
    val_main_v123 (F := Ideal) x0 x2 (ix2 n j)
      = ow * (val_main_v31 (F := Ideal) x0 (ix2 n (lab x2 hlab j)) - val_main_v20 (F := Ideal) x0 (ix2 n (lab x2 hlab j))) := by
  rw [val_main_v123_apply, val_main_v122_apply, val_main_cst_14_apply, val_main_v46_apply]
  unfold val_main_v38 val_main_v45
  rw [LibColGather.gather_cols_apply_of_toInt _ rfl rfl rfl rfl rfl rfl rfl _ _ n j (lab x2 hlab j) (start_pos x2 hlab j),
    LibColGather.gather_cols_apply_of_toInt _ rfl rfl rfl rfl rfl rfl rfl _ _ n j (lab x2 hlab j) (start_neg x2 hlab j)]
  rfl

end Cert.ReferenceIdeal.RefClass

end
-- ==== Proof.KernelHost.lean ====
/-
  What the host lines before the launch leave in the four arrays the kernel's windows stage.

  They are: the predicted boxes as [16000 × 4]; the class weights positive − negative as [16000 × 80]; the target
  boxes transposed to [4 × 1024]; and the label indicators transposed to [80 × 1024], entry (k, j) being 1 when
  target j's label is class k and 0 otherwise.  The first three are stated over the same whole-array terms the
  reference's own operations build, since the two programs compute them by the same operations; the indicator is
  read entry by entry.
-/
import proofs.«427540_j7267084665334_1_alg».proof.Proof.Gen.KernelIdeal.Frame
import proofs.«427540_j7267084665334_1_alg».proof.Proof.Gen.ReferenceIdeal.Read
import proofs.«427540_j7267084665334_1_alg».proof.Proof.RefClass
import Idealize.ShloMosaic.Lib.Pipeline.Value
import Idealize.ShloMosaic.Lib.ValueIdx
import Idealize.ShloMosaic.Lib.StableHlo.Run
import Idealize.ShloMosaic.Lib.StableHlo.Predicate

noncomputable section

namespace Cert.KernelIdeal.HostSide

open Cert.KernelIdeal Cert.KernelIdeal.Gen Idealize.ShloMosaic Idealize.ShloMosaic.TcCoe Idealize.SL.Sem
open Idealize.ShloMosaic.ValueIdx
open Cert.ReferenceIdeal.Read (val_main_v7 val_main_v9 val_main_v8 val_main_v31 val_main_v20)
open Cert.ReferenceIdeal.RefClass (lab)

variable (m : (ℓ : Loc nD τ sig) → Buf (Elt Ideal) ℓ)

/-- The predicted boxes, one per row. -/
theorem boxes_eq (c : Dev nD) : V m c main_v30 = val_main_v7 (F := Ideal) (m ((c : Thread nD τ).loc main_arg1)) := by
  show StableHlo.after hostOps0 (fun b => m (c, b)) (Proc.devRef .tc main_v30) = _
  after_results
  rfl

/-- The class weights: positive minus negative, entry by entry. -/
theorem weights_eq (c : Dev nD) : V m c main_v29
    = (subf (val_main_v31 (F := Ideal) (m ((c : Thread nD τ).loc main_arg0)))
        (val_main_v20 (F := Ideal) (m ((c : Thread nD τ).loc main_arg0))) : FVec Ideal S16000x80 .f32) := by
  show StableHlo.after hostOps0 (fun b => m (c, b)) (Proc.devRef .tc main_v29) = _
  after_results_simp
  rfl

/-- The target boxes, transposed: one per column. -/
theorem boxT_eq (c : Dev nD) : V m c main_v41
    = transpose S4x1024 [1, 0] (val_main_v9 (F := Ideal) (m ((c : Thread nD τ).loc main_arg3))) transposes_S1024x4_S4x1024_1_0 := by
  show StableHlo.after hostOps0 (fun b => m (c, b)) (Proc.devRef .tc main_v41) = _
  after_results
  rfl

/-- Coordinate a of target box j. -/
theorem boxT_apply (c : Dev nD) (a : Fin 4) (j : Fin 1024) :
    V m c main_v41 (ix2 a j) = val_main_v9 (F := Ideal) (m ((c : Thread nD τ).loc main_arg3)) (ix2 j a) := by
  rw [boxT_eq]
  refine transpose_apply _ _ _ _ (ix2 j a) fun b => ?_
  match b with
  | ⟨0, _⟩ => rfl
  | ⟨1, _⟩ => rfl

/-- The label indicators as the host lines build them: compare each label with each class number, convert the bit,
    transpose. -/
theorem onehotT_eq (c : Dev nD) : V m c main_v39
    = transpose S80x1024 [1, 0]
        (uitofp .f32 (cmpi .eq
          (broadcastInDim S1024x80 ![0, 1] bcast_S1024x1_S1024x80_0_1
            (broadcastInDim S1024x1 ![0] bcast_S1024_S1024x1_0 (val_main_v8 (F := Ideal) (m ((c : Thread nD τ).loc main_arg2)))))
          (broadcastInDim S1024x80 ![0, 1] bcast_S1x80_S1024x80_0_1
            (broadcastInDim S1x80 ![1] bcast_S80_S1x80_1 (iotaInDim S80 32 0)))) : FVec Ideal S1024x80 .f32)
        transposes_S1024x80_S80x1024_1_0 := by
  show StableHlo.after hostOps0 (fun b => m (c, b)) (Proc.devRef .tc main_v39) = _
  after_results
  rfl

/-- Entry (k, j) of the indicator table: the comparison bit of target j's label with the class number k. -/
theorem onehotT_bit (c : Dev nD) (k : Fin 80) (j : Fin 1024) :
    V m c main_v39 (ix2 k j)
      = (((IntOp.cmpi .eq (val_main_v8 (F := Ideal) (m ((c : Thread nD τ).loc main_arg2)) (ix1 j)) (BitVec.ofNat 32 k.val)).toNat : ℝ) : EReal) := by
  rw [onehotT_eq]
  refine (transpose_apply _ _ _ _ (ix2 j k) fun b => ?_).trans ?_
  · match b with
    | ⟨0, _⟩ => rfl
    | ⟨1, _⟩ => rfl
  show (((IntOp.cmpi .eq _ _).toNat : ℝ) : EReal) = _
  congr 4

/-- With every label in range, entry (k, j) is 1 at target j's label and 0 elsewhere. -/
theorem onehotT_apply (c : Dev nD) (hlab : ∀ i, (m ((c : Thread nD τ).loc main_arg2) i).toNat < 80) (k : Fin 80) (j : Fin 1024) :
    V m c main_v39 (ix2 k j) = if k = lab (m ((c : Thread nD τ).loc main_arg2)) hlab j then (1 : EReal) else 0 := by
  rw [onehotT_bit]
  have hw := Cert.ReferenceIdeal.RefClass.lab_val (m ((c : Thread nD τ).loc main_arg2)) hlab j
  generalize val_main_v8 (F := Ideal) (m ((c : Thread nD τ).loc main_arg2)) (ix1 j) = w at hw
  by_cases hk : k = lab (m ((c : Thread nD τ).loc main_arg2)) hlab j
  · rw [if_pos hk]
    have : w = BitVec.ofNat 32 k.val := by
      apply BitVec.eq_of_toNat_eq
      rw [BitVec.toNat_ofNat, hw, hk]
      exact (Nat.mod_eq_of_lt (by have := (lab (m ((c : Thread nD τ).loc main_arg2)) hlab j).isLt; omega)).symm
    rw [StableHlo.Predicate.cmpi_eq_iff.2 this]
    simp
  · rw [if_neg hk]
    have h0 : IntOp.cmpi .eq w (BitVec.ofNat 32 k.val) = 0#1 :=
      eq_zero_of_ne_one fun h1 => hk (Fin.ext (by
        have e := StableHlo.Predicate.cmpi_eq_iff.1 h1
        have : w.toNat = k.val := by
          rw [e, BitVec.toNat_ofNat]; exact Nat.mod_eq_of_lt (by have := k.isLt; omega)
        omega))
    rw [h0]
    simp

end Cert.KernelIdeal.HostSide

end
-- ==== Proof.RefBox.lean ====
/-
  The box part of the reference program, read at one entry.

  The reference reshapes the predicted boxes to [16000, 4] and the target boxes to [1024, 4] and then computes, for
  every pair (n, j), the generalized intersection over union of row n of the first with row j of the second, by
  slicing out coordinate columns, broadcasting them against each other and combining them elementwise.  Every
  operation on the way is either elementwise or a layout operation (slice, reshape, broadcast), so the value at
  entry (n, j) depends on the eight coordinates a₀ … a₃ of predicted box n and b₀ … b₃ of target box j only, and it
  is the scalar expression of the specification, operation for operation.  The lemmas below follow the program in
  its own order: the two areas, the corners of the intersection (componentwise maximum of the lower corners,
  minimum of the upper corners), its clipped side lengths and their product, the union, the quotient, then the
  same for the enclosing box, and at last the difference, its negation and the product with the word of one.
  A layout operation is read by following the index: each index map is evaluated coordinate by coordinate, and the
  only arithmetic met is that of a reshape between [N, 1] and [N] (a division by one) and between [16000, 1024, 1]
  and [16000, 1024] (n · 1024 + j divided by 1024 is n, with remainder j, since j < 1024).
-/
import proofs.«427540_j7267084665334_1_alg».proof.Proof.Gen.ReferenceIdeal.Read
import proofs.«427540_j7267084665334_1_alg».proof.Proof.Spec
import Idealize.ShloMosaic.Lib.ValueIdx
import Idealize.ShloMosaic.Lib.Pipeline.Value

noncomputable section

namespace Cert.ReferenceIdeal.RefBox

open Cert.ReferenceIdeal Cert.ReferenceIdeal.Read Idealize.ShloMosaic Idealize.ShloMosaic.ValueIdx Cert.BoxCost

variable (x1 : (⟨S16x1000x4, .f32⟩ : BufTy).Contents (Elt Ideal)) (x3 : (⟨S16x64x4, .f32⟩ : BufTy).Contents (Elt Ideal))

/-! ## The area of a predicted box: columns 2, 0, 3, 1 of the [16000, 4] array, each sliced out as [16000, 1]
    and reshaped to [16000] -/

theorem v48_at (n : Fin 16000) :
    val_main_v48 (F := Ideal) x1 (ix1 n) = val_main_v7 (F := Ideal) x1 (ix2 n 2) := by
  rw [val_main_v48_apply, val_main_v47_apply]
  refine congrArg (val_main_v7 (F := Ideal) x1) (funext fun a => ?_)
  match a with
  | ⟨0, _⟩ => exact Fin.ext (Nat.div_one _)
  | ⟨1, _⟩ => rfl

theorem v50_at (n : Fin 16000) :
    val_main_v50 (F := Ideal) x1 (ix1 n) = val_main_v7 (F := Ideal) x1 (ix2 n 0) := by
  rw [val_main_v50_apply, val_main_v49_apply]
  refine congrArg (val_main_v7 (F := Ideal) x1) (funext fun a => ?_)
  match a with
  | ⟨0, _⟩ => exact Fin.ext (Nat.div_one _)
  | ⟨1, _⟩ => rfl

theorem v53_at (n : Fin 16000) :
    val_main_v53 (F := Ideal) x1 (ix1 n) = val_main_v7 (F := Ideal) x1 (ix2 n 3) := by
  rw [val_main_v53_apply, val_main_v52_apply]
  refine congrArg (val_main_v7 (F := Ideal) x1) (funext fun a => ?_)
  match a with
  | ⟨0, _⟩ => exact Fin.ext (Nat.div_one _)
  | ⟨1, _⟩ => rfl

theorem v55_at (n : Fin 16000) :
    val_main_v55 (F := Ideal) x1 (ix1 n) = val_main_v7 (F := Ideal) x1 (ix2 n 1) := by
  rw [val_main_v55_apply, val_main_v54_apply]
  refine congrArg (val_main_v7 (F := Ideal) x1) (funext fun a => ?_)
  match a with
  | ⟨0, _⟩ => exact Fin.ext (Nat.div_one _)
  | ⟨1, _⟩ => rfl

/-- area a = (a₂ − a₀) · (a₃ − a₁). -/
theorem v57_at (n : Fin 16000) :
    val_main_v57 (F := Ideal) x1 (ix1 n)
      = (val_main_v7 (F := Ideal) x1 (ix2 n 2) - val_main_v7 (F := Ideal) x1 (ix2 n 0))
        * (val_main_v7 (F := Ideal) x1 (ix2 n 3) - val_main_v7 (F := Ideal) x1 (ix2 n 1)) := by
  rw [val_main_v57_apply, val_main_v51_apply, val_main_v56_apply, v48_at, v50_at, v53_at, v55_at]
  rfl

/-! ## The area of a target box: the same four columns of the [1024, 4] array -/

theorem v59_at (j : Fin 1024) :
    val_main_v59 (F := Ideal) x3 (ix1 j) = val_main_v9 (F := Ideal) x3 (ix2 j 2) := by
  rw [val_main_v59_apply, val_main_v58_apply]
  refine congrArg (val_main_v9 (F := Ideal) x3) (funext fun a => ?_)
  match a with
  | ⟨0, _⟩ => exact Fin.ext (Nat.div_one _)
  | ⟨1, _⟩ => rfl

theorem v61_at (j : Fin 1024) :
    val_main_v61 (F := Ideal) x3 (ix1 j) = val_main_v9 (F := Ideal) x3 (ix2 j 0) := by
  rw [val_main_v61_apply, val_main_v60_apply]
  refine congrArg (val_main_v9 (F := Ideal) x3) (funext fun a => ?_)
  match a with
  | ⟨0, _⟩ => exact Fin.ext (Nat.div_one _)
  | ⟨1, _⟩ => rfl

theorem v64_at (j : Fin 1024) :
    val_main_v64 (F := Ideal) x3 (ix1 j) = val_main_v9 (F := Ideal) x3 (ix2 j 3) := by
  rw [val_main_v64_apply, val_main_v63_apply]
  refine congrArg (val_main_v9 (F := Ideal) x3) (funext fun a => ?_)
  match a with
  | ⟨0, _⟩ => exact Fin.ext (Nat.div_one _)
  | ⟨1, _⟩ => rfl

theorem v66_at (j : Fin 1024) :
    val_main_v66 (F := Ideal) x3 (ix1 j) = val_main_v9 (F := Ideal) x3 (ix2 j 1) := by
  rw [val_main_v66_apply, val_main_v65_apply]
  refine congrArg (val_main_v9 (F := Ideal) x3) (funext fun a => ?_)
  match a with
  | ⟨0, _⟩ => exact Fin.ext (Nat.div_one _)
  | ⟨1, _⟩ => rfl

/-- area b = (b₂ − b₀) · (b₃ − b₁). -/
theorem v68_at (j : Fin 1024) :
    val_main_v68 (F := Ideal) x3 (ix1 j)
      = (val_main_v9 (F := Ideal) x3 (ix2 j 2) - val_main_v9 (F := Ideal) x3 (ix2 j 0))
        * (val_main_v9 (F := Ideal) x3 (ix2 j 3) - val_main_v9 (F := Ideal) x3 (ix2 j 1)) := by
  rw [val_main_v68_apply, val_main_v62_apply, val_main_v67_apply, v59_at, v61_at, v64_at, v66_at]
  rfl

/-! ## The lower corner of the intersection: columns 0 and 1 of both arrays, broadcast to [16000, 1024, 2],
    componentwise maximum -/

theorem v73_at0 (n : Fin 16000) (j : Fin 1024) :
    val_main_v73 (F := Ideal) x1 (ix3 n j 0) = val_main_v7 (F := Ideal) x1 (ix2 n 0) := by
  rw [val_main_v73_apply, val_main_v70_apply, val_main_v69_apply]
  refine congrArg (val_main_v7 (F := Ideal) x1) (funext fun a => ?_)
  match a with
  | ⟨0, _⟩ => rfl
  | ⟨1, _⟩ => rfl

theorem v73_at1 (n : Fin 16000) (j : Fin 1024) :
    val_main_v73 (F := Ideal) x1 (ix3 n j 1) = val_main_v7 (F := Ideal) x1 (ix2 n 1) := by
  rw [val_main_v73_apply, val_main_v70_apply, val_main_v69_apply]
  refine congrArg (val_main_v7 (F := Ideal) x1) (funext fun a => ?_)
  match a with
  | ⟨0, _⟩ => rfl
  | ⟨1, _⟩ => rfl

theorem v74_at0 (n : Fin 16000) (j : Fin 1024) :
    val_main_v74 (F := Ideal) x3 (ix3 n j 0) = val_main_v9 (F := Ideal) x3 (ix2 j 0) := by
  rw [val_main_v74_apply, val_main_v72_apply, val_main_v71_apply]
  refine congrArg (val_main_v9 (F := Ideal) x3) (funext fun a => ?_)
  match a with
  | ⟨0, _⟩ => rfl
  | ⟨1, _⟩ => rfl

theorem v74_at1 (n : Fin 16000) (j : Fin 1024) :
    val_main_v74 (F := Ideal) x3 (ix3 n j 1) = val_main_v9 (F := Ideal) x3 (ix2 j 1) := by
  rw [val_main_v74_apply, val_main_v72_apply, val_main_v71_apply]
  refine congrArg (val_main_v9 (F := Ideal) x3) (funext fun a => ?_)
  match a with
  | ⟨0, _⟩ => rfl
  | ⟨1, _⟩ => rfl

theorem v75_at0 (n : Fin 16000) (j : Fin 1024) :
    val_main_v75 (F := Ideal) x1 x3 (ix3 n j 0)
      = max (val_main_v7 (F := Ideal) x1 (ix2 n 0)) (val_main_v9 (F := Ideal) x3 (ix2 j 0)) := by
  rw [val_main_v75_apply, v73_at0, v74_at0]
  rfl

theorem v75_at1 (n : Fin 16000) (j : Fin 1024) :
    val_main_v75 (F := Ideal) x1 x3 (ix3 n j 1)
      = max (val_main_v7 (F := Ideal) x1 (ix2 n 1)) (val_main_v9 (F := Ideal) x3 (ix2 j 1)) := by
  rw [val_main_v75_apply, v73_at1, v74_at1]
  rfl

/-! ## The upper corner of the intersection: columns 2 and 3, componentwise minimum -/

theorem v80_at0 (n : Fin 16000) (j : Fin 1024) :
    val_main_v80 (F := Ideal) x1 (ix3 n j 0) = val_main_v7 (F := Ideal) x1 (ix2 n 2) := by
  rw [val_main_v80_apply, val_main_v77_apply, val_main_v76_apply]
  refine congrArg (val_main_v7 (F := Ideal) x1) (funext fun a => ?_)
  match a with
  | ⟨0, _⟩ => rfl
  | ⟨1, _⟩ => rfl

theorem v80_at1 (n : Fin 16000) (j : Fin 1024) :
    val_main_v80 (F := Ideal) x1 (ix3 n j 1) = val_main_v7 (F := Ideal) x1 (ix2 n 3) := by
  rw [val_main_v80_apply, val_main_v77_apply, val_main_v76_apply]
  refine congrArg (val_main_v7 (F := Ideal) x1) (funext fun a => ?_)
  match a with
  | ⟨0, _⟩ => rfl
  | ⟨1, _⟩ => rfl

theorem v81_at0 (n : Fin 16000) (j : Fin 1024) :
    val_main_v81 (F := Ideal) x3 (ix3 n j 0) = val_main_v9 (F := Ideal) x3 (ix2 j 2) := by
  rw [val_main_v81_apply, val_main_v79_apply, val_main_v78_apply]
  refine congrArg (val_main_v9 (F := Ideal) x3) (funext fun a => ?_)
  match a with
  | ⟨0, _⟩ => rfl
  | ⟨1, _⟩ => rfl

theorem v81_at1 (n : Fin 16000) (j : Fin 1024) :
    val_main_v81 (F := Ideal) x3 (ix3 n j 1) = val_main_v9 (F := Ideal) x3 (ix2 j 3) := by
  rw [val_main_v81_apply, val_main_v79_apply, val_main_v78_apply]
  refine congrArg (val_main_v9 (F := Ideal) x3) (funext fun a => ?_)
  match a with
  | ⟨0, _⟩ => rfl
  | ⟨1, _⟩ => rfl

theorem v82_at0 (n : Fin 16000) (j : Fin 1024) :
    val_main_v82 (F := Ideal) x1 x3 (ix3 n j 0)
      = min (val_main_v7 (F := Ideal) x1 (ix2 n 2)) (val_main_v9 (F := Ideal) x3 (ix2 j 2)) := by
  rw [val_main_v82_apply, v80_at0, v81_at0]
  rfl

theorem v82_at1 (n : Fin 16000) (j : Fin 1024) :
    val_main_v82 (F := Ideal) x1 x3 (ix3 n j 1)
      = min (val_main_v7 (F := Ideal) x1 (ix2 n 3)) (val_main_v9 (F := Ideal) x3 (ix2 j 3)) := by
  rw [val_main_v82_apply, v81_at1, v80_at1]
  rfl

/-! ## The clipped side lengths of the intersection, and its area -/

theorem v84_at0 (n : Fin 16000) (j : Fin 1024) :
    val_main_v84 (F := Ideal) x1 x3 (ix3 n j 0)
      = max zw (min (val_main_v7 (F := Ideal) x1 (ix2 n 2)) (val_main_v9 (F := Ideal) x3 (ix2 j 2))
                - max (val_main_v7 (F := Ideal) x1 (ix2 n 0)) (val_main_v9 (F := Ideal) x3 (ix2 j 0))) := by
  rw [val_main_v84_apply, val_main_call0_v1_apply, val_main_call0_v0_apply, val_main_cst_12_apply,
    val_main_v83_apply, v82_at0, v75_at0]
  rfl

theorem v84_at1 (n : Fin 16000) (j : Fin 1024) :
    val_main_v84 (F := Ideal) x1 x3 (ix3 n j 1)
      = max zw (min (val_main_v7 (F := Ideal) x1 (ix2 n 3)) (val_main_v9 (F := Ideal) x3 (ix2 j 3))
                - max (val_main_v7 (F := Ideal) x1 (ix2 n 1)) (val_main_v9 (F := Ideal) x3 (ix2 j 1))) := by
  rw [val_main_v84_apply, val_main_call0_v1_apply, val_main_call0_v0_apply, val_main_cst_12_apply,
    val_main_v83_apply, v82_at1, v75_at1]
  rfl

/-- Component 0 of the clipped sides as a [16000, 1024] array: the reshape's flat position n · 1024 + j has
    quotient n and remainder j. -/
theorem v86_at (n : Fin 16000) (j : Fin 1024) :
    val_main_v86 (F := Ideal) x1 x3 (ix2 n j) = val_main_v84 (F := Ideal) x1 x3 (ix3 n j 0) := by
  rw [val_main_v86_apply, val_main_v85_apply]
  refine congrArg (val_main_v84 (F := Ideal) x1 x3) (funext fun a => ?_)
  have hn : n.val < 16000 := n.isLt
  have hj : j.val < 1024 := j.isLt
  match a with
  | ⟨0, _⟩ => exact Fin.ext (show (n.val * 1024 + j.val) / 1024 = n.val by omega)
  | ⟨1, _⟩ => exact Fin.ext (show (n.val * 1024 + j.val) / 1 % 1024 = j.val by omega)
  | ⟨2, _⟩ => rfl

theorem v88_at (n : Fin 16000) (j : Fin 1024) :
    val_main_v88 (F := Ideal) x1 x3 (ix2 n j) = val_main_v84 (F := Ideal) x1 x3 (ix3 n j 1) := by
  rw [val_main_v88_apply, val_main_v87_apply]
  refine congrArg (val_main_v84 (F := Ideal) x1 x3) (funext fun a => ?_)
  have hn : n.val < 16000 := n.isLt
  have hj : j.val < 1024 := j.isLt
  match a with
  | ⟨0, _⟩ => exact Fin.ext (show (n.val * 1024 + j.val) / 1024 = n.val by omega)
  | ⟨1, _⟩ => exact Fin.ext (show (n.val * 1024 + j.val) / 1 % 1024 = j.val by omega)
  | ⟨2, _⟩ => rfl

theorem v89_at (n : Fin 16000) (j : Fin 1024) :
    val_main_v89 (F := Ideal) x1 x3 (ix2 n j)
      = overlap (val_main_v7 (F := Ideal) x1 (ix2 n 0)) (val_main_v7 (F := Ideal) x1 (ix2 n 1))
          (val_main_v7 (F := Ideal) x1 (ix2 n 2)) (val_main_v7 (F := Ideal) x1 (ix2 n 3))
          (val_main_v9 (F := Ideal) x3 (ix2 j 0)) (val_main_v9 (F := Ideal) x3 (ix2 j 1))
          (val_main_v9 (F := Ideal) x3 (ix2 j 2)) (val_main_v9 (F := Ideal) x3 (ix2 j 3)) := by
  rw [val_main_v89_apply, v86_at, v88_at, v84_at0, v84_at1]
  rfl

/-! ## The union: the two areas broadcast along the other axis, added, minus the intersection; and the quotient -/

theorem v92_at (n : Fin 16000) (j : Fin 1024) :
    val_main_v92 (F := Ideal) x1 (ix2 n j) = val_main_v57 (F := Ideal) x1 (ix1 n) := by
  rw [val_main_v92_apply, val_main_v90_apply]
  refine congrArg (val_main_v57 (F := Ideal) x1) (funext fun a => ?_)
  match a with
  | ⟨0, _⟩ => rfl

theorem v93_at (n : Fin 16000) (j : Fin 1024) :
    val_main_v93 (F := Ideal) x3 (ix2 n j) = val_main_v68 (F := Ideal) x3 (ix1 j) := by
  rw [val_main_v93_apply, val_main_v91_apply]
  refine congrArg (val_main_v68 (F := Ideal) x3) (funext fun a => ?_)
  match a with
  | ⟨0, _⟩ => rfl

theorem v95_at (n : Fin 16000) (j : Fin 1024) :
    val_main_v95 (F := Ideal) x1 x3 (ix2 n j)
      = joined (val_main_v7 (F := Ideal) x1 (ix2 n 0)) (val_main_v7 (F := Ideal) x1 (ix2 n 1))
          (val_main_v7 (F := Ideal) x1 (ix2 n 2)) (val_main_v7 (F := Ideal) x1 (ix2 n 3))
          (val_main_v9 (F := Ideal) x3 (ix2 j 0)) (val_main_v9 (F := Ideal) x3 (ix2 j 1))
          (val_main_v9 (F := Ideal) x3 (ix2 j 2)) (val_main_v9 (F := Ideal) x3 (ix2 j 3)) := by
  rw [val_main_v95_apply, val_main_v94_apply, v92_at, v93_at, v57_at, v68_at, v89_at]
  rfl

theorem v96_at (n : Fin 16000) (j : Fin 1024) :
    val_main_v96 (F := Ideal) x1 x3 (ix2 n j)
      = Ideal.div
          (overlap (val_main_v7 (F := Ideal) x1 (ix2 n 0)) (val_main_v7 (F := Ideal) x1 (ix2 n 1))
            (val_main_v7 (F := Ideal) x1 (ix2 n 2)) (val_main_v7 (F := Ideal) x1 (ix2 n 3))
            (val_main_v9 (F := Ideal) x3 (ix2 j 0)) (val_main_v9 (F := Ideal) x3 (ix2 j 1))
            (val_main_v9 (F := Ideal) x3 (ix2 j 2)) (val_main_v9 (F := Ideal) x3 (ix2 j 3)))
          (joined (val_main_v7 (F := Ideal) x1 (ix2 n 0)) (val_main_v7 (F := Ideal) x1 (ix2 n 1))
            (val_main_v7 (F := Ideal) x1 (ix2 n 2)) (val_main_v7 (F := Ideal) x1 (ix2 n 3))
            (val_main_v9 (F := Ideal) x3 (ix2 j 0)) (val_main_v9 (F := Ideal) x3 (ix2 j 1))
            (val_main_v9 (F := Ideal) x3 (ix2 j 2)) (val_main_v9 (F := Ideal) x3 (ix2 j 3))) := by
  rw [val_main_v96_apply, v89_at, v95_at]
  rfl

/-! ## The enclosing box: minimum of the lower corners, maximum of the upper corners, clipped sides, area -/

theorem v101_at0 (n : Fin 16000) (j : Fin 1024) :
    val_main_v101 (F := Ideal) x1 (ix3 n j 0) = val_main_v7 (F := Ideal) x1 (ix2 n 0) := by
  rw [val_main_v101_apply, val_main_v98_apply, val_main_v97_apply]
  refine congrArg (val_main_v7 (F := Ideal) x1) (funext fun a => ?_)
  match a with
  | ⟨0, _⟩ => rfl
  | ⟨1, _⟩ => rfl

theorem v101_at1 (n : Fin 16000) (j : Fin 1024) :
    val_main_v101 (F := Ideal) x1 (ix3 n j 1) = val_main_v7 (F := Ideal) x1 (ix2 n 1) := by
  rw [val_main_v101_apply, val_main_v98_apply, val_main_v97_apply]
  refine congrArg (val_main_v7 (F := Ideal) x1) (funext fun a => ?_)
  match a with
  | ⟨0, _⟩ => rfl
  | ⟨1, _⟩ => rfl

theorem v102_at0 (n : Fin 16000) (j : Fin 1024) :
    val_main_v102 (F := Ideal) x3 (ix3 n j 0) = val_main_v9 (F := Ideal) x3 (ix2 j 0) := by
  rw [val_main_v102_apply, val_main_v100_apply, val_main_v99_apply]
  refine congrArg (val_main_v9 (F := Ideal) x3) (funext fun a => ?_)
  match a with
  | ⟨0, _⟩ => rfl
  | ⟨1, _⟩ => rfl

theorem v102_at1 (n : Fin 16000) (j : Fin 1024) :
    val_main_v102 (F := Ideal) x3 (ix3 n j 1) = val_main_v9 (F := Ideal) x3 (ix2 j 1) := by
  rw [val_main_v102_apply, val_main_v100_apply, val_main_v99_apply]
  refine congrArg (val_main_v9 (F := Ideal) x3) (funext fun a => ?_)
  match a with
  | ⟨0, _⟩ => rfl
  | ⟨1, _⟩ => rfl

theorem v103_at0 (n : Fin 16000) (j : Fin 1024) :
    val_main_v103 (F := Ideal) x1 x3 (ix3 n j 0)
      = min (val_main_v7 (F := Ideal) x1 (ix2 n 0)) (val_main_v9 (F := Ideal) x3 (ix2 j 0)) := by
  rw [val_main_v103_apply, v101_at0, v102_at0]
  rfl

theorem v103_at1 (n : Fin 16000) (j : Fin 1024) :
    val_main_v103 (F := Ideal) x1 x3 (ix3 n j 1)
      = min (val_main_v7 (F := Ideal) x1 (ix2 n 1)) (val_main_v9 (F := Ideal) x3 (ix2 j 1)) := by
  rw [val_main_v103_apply, v101_at1, v102_at1]
  rfl

theorem v108_at0 (n : Fin 16000) (j : Fin 1024) :
    val_main_v108 (F := Ideal) x1 (ix3 n j 0) = val_main_v7 (F := Ideal) x1 (ix2 n 2) := by
  rw [val_main_v108_apply, val_main_v105_apply, val_main_v104_apply]
  refine congrArg (val_main_v7 (F := Ideal) x1) (funext fun a => ?_)
  match a with
  | ⟨0, _⟩ => rfl
  | ⟨1, _⟩ => rfl

theorem v108_at1 (n : Fin 16000) (j : Fin 1024) :
    val_main_v108 (F := Ideal) x1 (ix3 n j 1) = val_main_v7 (F := Ideal) x1 (ix2 n 3) := by
  rw [val_main_v108_apply, val_main_v105_apply, val_main_v104_apply]
  refine congrArg (val_main_v7 (F := Ideal) x1) (funext fun a => ?_)
  match a with
  | ⟨0, _⟩ => rfl
  | ⟨1, _⟩ => rfl

theorem v109_at0 (n : Fin 16000) (j : Fin 1024) :
    val_main_v109 (F := Ideal) x3 (ix3 n j 0) = val_main_v9 (F := Ideal) x3 (ix2 j 2) := by
  rw [val_main_v109_apply, val_main_v107_apply, val_main_v106_apply]
  refine congrArg (val_main_v9 (F := Ideal) x3) (funext fun a => ?_)
  match a with
  | ⟨0, _⟩ => rfl
  | ⟨1, _⟩ => rfl

theorem v109_at1 (n : Fin 16000) (j : Fin 1024) :
    val_main_v109 (F := Ideal) x3 (ix3 n j 1) = val_main_v9 (F := Ideal) x3 (ix2 j 3) := by
  rw [val_main_v109_apply, val_main_v107_apply, val_main_v106_apply]
  refine congrArg (val_main_v9 (F := Ideal) x3) (funext fun a => ?_)
  match a with
  | ⟨0, _⟩ => rfl
  | ⟨1, _⟩ => rfl

theorem v110_at0 (n : Fin 16000) (j : Fin 1024) :
    val_main_v110 (F := Ideal) x1 x3 (ix3 n j 0)
      = max (val_main_v7 (F := Ideal) x1 (ix2 n 2)) (val_main_v9 (F := Ideal) x3 (ix2 j 2)) := by
  rw [val_main_v110_apply, v108_at0, v109_at0]
  rfl

theorem v110_at1 (n : Fin 16000) (j : Fin 1024) :
    val_main_v110 (F := Ideal) x1 x3 (ix3 n j 1)
      = max (val_main_v7 (F := Ideal) x1 (ix2 n 3)) (val_main_v9 (F := Ideal) x3 (ix2 j 3)) := by
  rw [val_main_v110_apply, v108_at1, v109_at1]
  rfl

theorem v112_at0 (n : Fin 16000) (j : Fin 1024) :
    val_main_v112 (F := Ideal) x1 x3 (ix3 n j 0)
      = max zw (max (val_main_v7 (F := Ideal) x1 (ix2 n 2)) (val_main_v9 (F := Ideal) x3 (ix2 j 2))
                - min (val_main_v7 (F := Ideal) x1 (ix2 n 0)) (val_main_v9 (F := Ideal) x3 (ix2 j 0))) := by
  rw [val_main_v112_apply, val_main_call1_v1_apply, val_main_call1_v0_apply, val_main_cst_13_apply,
    val_main_v111_apply, v110_at0, v103_at0]
  rfl

theorem v112_at1 (n : Fin 16000) (j : Fin 1024) :
    val_main_v112 (F := Ideal) x1 x3 (ix3 n j 1)
      = max zw (max (val_main_v7 (F := Ideal) x1 (ix2 n 3)) (val_main_v9 (F := Ideal) x3 (ix2 j 3))
                - min (val_main_v7 (F := Ideal) x1 (ix2 n 1)) (val_main_v9 (F := Ideal) x3 (ix2 j 1))) := by
  rw [val_main_v112_apply, val_main_call1_v1_apply, val_main_call1_v0_apply, val_main_cst_13_apply,
    val_main_v111_apply, v110_at1, v103_at1]
  rfl

theorem v114_at (n : Fin 16000) (j : Fin 1024) :
    val_main_v114 (F := Ideal) x1 x3 (ix2 n j) = val_main_v112 (F := Ideal) x1 x3 (ix3 n j 0) := by
  rw [val_main_v114_apply, val_main_v113_apply]
  refine congrArg (val_main_v112 (F := Ideal) x1 x3) (funext fun a => ?_)
  have hn : n.val < 16000 := n.isLt
  have hj : j.val < 1024 := j.isLt
  match a with
  | ⟨0, _⟩ => exact Fin.ext (show (n.val * 1024 + j.val) / 1024 = n.val by omega)
  | ⟨1, _⟩ => exact Fin.ext (show (n.val * 1024 + j.val) / 1 % 1024 = j.val by omega)
  | ⟨2, _⟩ => rfl

theorem v116_at (n : Fin 16000) (j : Fin 1024) :
    val_main_v116 (F := Ideal) x1 x3 (ix2 n j) = val_main_v112 (F := Ideal) x1 x3 (ix3 n j 1) := by
  rw [val_main_v116_apply, val_main_v115_apply]
  refine congrArg (val_main_v112 (F := Ideal) x1 x3) (funext fun a => ?_)
  have hn : n.val < 16000 := n.isLt
  have hj : j.val < 1024 := j.isLt
  match a with
  | ⟨0, _⟩ => exact Fin.ext (show (n.val * 1024 + j.val) / 1024 = n.val by omega)
  | ⟨1, _⟩ => exact Fin.ext (show (n.val * 1024 + j.val) / 1 % 1024 = j.val by omega)
  | ⟨2, _⟩ => rfl

theorem v117_at (n : Fin 16000) (j : Fin 1024) :
    val_main_v117 (F := Ideal) x1 x3 (ix2 n j)
      = hull (val_main_v7 (F := Ideal) x1 (ix2 n 0)) (val_main_v7 (F := Ideal) x1 (ix2 n 1))
          (val_main_v7 (F := Ideal) x1 (ix2 n 2)) (val_main_v7 (F := Ideal) x1 (ix2 n 3))
          (val_main_v9 (F := Ideal) x3 (ix2 j 0)) (val_main_v9 (F := Ideal) x3 (ix2 j 1))
          (val_main_v9 (F := Ideal) x3 (ix2 j 2)) (val_main_v9 (F := Ideal) x3 (ix2 j 3)) := by
  rw [val_main_v117_apply, v114_at, v116_at, v112_at0, v112_at1]
  rfl

/-! ## The result: the word of one times the negated generalized intersection over union -/

theorem box_apply (x1 : (⟨S16x1000x4, .f32⟩ : BufTy).Contents (Elt Ideal))
    (x3 : (⟨S16x64x4, .f32⟩ : BufTy).Contents (Elt Ideal)) (n : Fin 16000) (j : Fin 1024) :
    val_main_v125 (F := Ideal) x1 x3 (ix2 n j)
      = ow * (-(giou (val_main_v7 (F := Ideal) x1 (ix2 n 0)) (val_main_v7 (F := Ideal) x1 (ix2 n 1))
                  (val_main_v7 (F := Ideal) x1 (ix2 n 2)) (val_main_v7 (F := Ideal) x1 (ix2 n 3))
                  (val_main_v9 (F := Ideal) x3 (ix2 j 0)) (val_main_v9 (F := Ideal) x3 (ix2 j 1))
                  (val_main_v9 (F := Ideal) x3 (ix2 j 2)) (val_main_v9 (F := Ideal) x3 (ix2 j 3)))) := by
  rw [val_main_v125_apply, val_main_v124_apply, val_main_cst_15_apply, val_main_v121_apply, val_main_v120_apply,
    val_main_v119_apply, val_main_v118_apply, v96_at, v117_at, v95_at]
  rfl

end Cert.ReferenceIdeal.RefBox

end
-- ==== Proof.KernelWhole.lean ====
/-
  The kernel's result as ONE whole-array function: the reference's own value.

  Grid point t handles rows 400·t … 400·t + 399 of the [16000 × 1024] cost matrix.  Its box block and its weight
  block are those rows of the predicted boxes and of the class weights; the target-box table and the indicator table
  are staged whole.  So entry (r, j) of what point t writes back is entry (400·t + r, j) of the matrix whose class
  term is Σₖ weights(n, k) · indicator(k, j) and whose box term is 0 − giou(box n, box j).  With every label a
  class, the indicator column of target j marks exactly its label, the sum is the weight at the label, and
  0 − giou = −giou: this is the reference's entry.  The forty blocks tile the matrix, so the array the pipeline
  leaves is the reference's matrix, and the one host line after the launch reshapes it as the reference does.
-/
import proofs.«427540_j7267084665334_1_alg».proof.Proof.Gen.KernelIdeal.Frame
import proofs.«427540_j7267084665334_1_alg».proof.Proof.KernelPay
import proofs.«427540_j7267084665334_1_alg».proof.Proof.KernelHost
import proofs.«427540_j7267084665334_1_alg».proof.Proof.RefClass
import proofs.«427540_j7267084665334_1_alg».proof.Proof.RefBox
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.BoxCost
open Idealize.ShloMosaic.Pipeline (Dat)
open Cert.ReferenceIdeal.Read (val_main_v7 val_main_v9 val_main_v8 val_main_v31 val_main_v20 val_main_v126 val_main_v127)
open Cert.ReferenceIdeal.RefClass (lab)

variable (m : (ℓ : Loc nD τ sig) → Buf (Elt Ideal) ℓ) (ρ : Dev nD → PrngReg)

/-- The cost matrix as the reference computes it from the four arguments. -/
abbrev G (c : Dev nD) : S16000x1024.Idx → Elt Ideal .f32 :=
  val_main_v126 (F := Ideal) (m ((c : Thread nD τ).loc main_arg0)) (m ((c : Thread nD τ).loc main_arg1))
    (m ((c : Thread nD τ).loc main_arg2)) (m ((c : Thread nD τ).loc main_arg3))

/-- Where each window's block sits at point t: the row-blocked windows at block row t, the two tables whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row r of point t's blocks is row 400·t + r of the arrays. -/
def row (t : Fin cfg0.N) (r : Fin 400) : Fin 16000 :=
  ⟨t.val * 400 + r.val, by have h := t.isLt; have hN : cfg0.N = 40 := N_0; omega⟩

theorem iblk0_apply (c : Dev nD) (t : Fin cfg0.N) (r : Fin 400) (a : Fin 4) :
    (iblk m c 0 t : Vec Ideal S400x4 .f32) (ix2 r a) = V m c main_v30 (ix2 (row t r) a) := by
  obtain ⟨e0, e1, -⟩ := idx_facts t
  unfold iblk
  rw [View.read_apply]
  show V m c main_v30 _ = V m c main_v30 _
  congr 1
  funext b
  apply Fin.ext
  match b with
  | ⟨0, _⟩ => show win0_0.index t (0 : Fin 2) * 400 + 1 * r.val = t.val * 400 + r.val; rw [e0]; omega
  | ⟨1, _⟩ => show win0_0.index t (1 : Fin 2) * 4 + 1 * a.val = a.val; rw [e1]; omega

theorem iblk1_apply (c : Dev nD) (t : Fin cfg0.N) (r : Fin 400) (k : Fin 80) :
    (iblk m c 1 t : Vec Ideal S400x80 .f32) (ix2 r k) = V m c main_v29 (ix2 (row t r) k) := by
  obtain ⟨-, -, e0, e1, -⟩ := idx_facts t
  unfold iblk
  rw [View.read_apply]
  show V m c main_v29 _ = V m c main_v29 _
  congr 1
  funext b
  apply Fin.ext
  match b with
  | ⟨0, _⟩ => show win0_1.index t (0 : Fin 2) * 400 + 1 * r.val = t.val * 400 + r.val; rw [e0]; omega
  | ⟨1, _⟩ => show win0_1.index t (1 : Fin 2) * 80 + 1 * k.val = k.val; rw [e1]; omega

theorem iblk2_apply (c : Dev nD) (t : Fin cfg0.N) (a : Fin 4) (j : Fin 1024) :
    (iblk m c 2 t : Vec Ideal S4x1024 .f32) (ix2 a j) = V m c main_v41 (ix2 a j) := by
  obtain ⟨-, -, -, -, e0, e1, -⟩ := idx_facts t
  unfold iblk
  rw [View.read_apply]
  show V m c main_v41 _ = V m c main_v41 _
  congr 1
  funext b
  apply Fin.ext
  match b with
  | ⟨0, _⟩ => show win0_2.index t (0 : Fin 2) * 4 + 1 * a.val = a.val; rw [e0]; omega
  | ⟨1, _⟩ => show win0_2.index t (1 : Fin 2) * 1024 + 1 * j.val = j.val; rw [e1]; omega

theorem iblk3_apply (c : Dev nD) (t : Fin cfg0.N) (k : Fin 80) (j : Fin 1024) :
    (iblk m c 3 t : Vec Ideal S80x1024 .f32) (ix2 k j) = V m c main_v39 (ix2 k j) := by
  obtain ⟨-, -, -, -, -, -, e0, e1, -⟩ := idx_facts t
  unfold iblk
  rw [View.read_apply]
  show V m c main_v39 _ = V m c main_v39 _
  congr 1
  funext b
  apply Fin.ext
  match b with
  | ⟨0, _⟩ => show win0_3.index t (0 : Fin 2) * 80 + 1 * k.val = k.val; rw [e0]; omega
  | ⟨1, _⟩ => show win0_3.index t (1 : Fin 2) * 1024 + 1 * j.val = j.val; rw [e1]; omega

/-- ENTRY (r, j) OF WHAT POINT t LEAVES is the reference's entry (400·t + r, j). -/
theorem block_entry (c : Dev nD) (hlab : ∀ i, (m ((c : Thread nD τ).loc main_arg2) i).toNat < 80)
    (t : Fin cfg0.N) (r : Fin 400) (j : Fin 1024) :
    out0_4 (iblk m c 0 t) (iblk m c 1 t) (iblk m c 2 t) (iblk m c 3 t) (ix2 r j) = G m c (ix2 (row t r) j) := by
  refine (Pay.out_apply (iblk m c 0 t) (iblk m c 1 t) (iblk m c 2 t) (iblk m c 3 t) r j).trans ?_
  unfold G
  rw [Cert.ReferenceIdeal.Read.val_main_v126_apply,
    Cert.ReferenceIdeal.RefClass.class_apply _ _ hlab, Cert.ReferenceIdeal.RefBox.box_apply, zw_sub]
  simp only [iblk0_apply, iblk1_apply, iblk2_apply, iblk3_apply, HostSide.boxT_apply,
    HostSide.onehotT_apply m c hlab]
  rw [HostSide.boxes_eq, HostSide.weights_eq,
    sum_mul_indicator _ _ (lab (m ((c : Thread nD τ).loc main_arg2)) hlab j) (fun _ => rfl)]
  rfl

/-- An index of the matrix is in point t's block iff each coordinate is in the block's range on its axis. -/
theorem mem_blk4 (t : Fin cfg0.N) (i : S16000x1024.Idx) :
    i ∈ ((cfg0.win 4).blk t).view.set ↔ ∀ a : Fin 2, win0_4.index t a * S400x1024.size a ≤ (i a).val
      ∧ (i a).val < win0_4.index t a * S400x1024.size a + S400x1024.size a := by
  show i ∈ ((View.whole main_v42).slice (win0_4.rect t)).set ↔ _
  rw [View.set_slice_whole, Rect.mem_set_unit]
  exact Iff.rfl

/-- WHAT POINT t WRITES BACK is block t of the reference's matrix. -/
theorem flushed_eq (c : Dev nD) (hlab : ∀ i, (m ((c : Thread nD τ).loc main_arg2) i).toNat < 80) (t : Fin cfg0.N) :
    (dats m 0 c).flushed 4 t = ((cfg0.win 4).blk t).view.read (Elt Ideal) (G m c) := by
  obtain ⟨-, -, -, -, -, -, -, -, e0, e1⟩ := idx_facts t
  show (cfg0.win 4).cut (grid0.coords t) ((dats m 0 c).after 4 t) = _
  rw [after0_4]
  funext y
  show out0_4 (iblk m c 0 t) (iblk m c 1 t) (iblk m c 2 t) (iblk m c 3 t) y = G m c (((cfg0.win 4).blk t).view.emb y)
  refine (congrArg (out0_4 (iblk m c 0 t) (iblk m c 1 t) (iblk m c 2 t) (iblk m c 3 t)) (eq_ix2 y)).trans
    ((block_entry m c hlab t (y 0) (y 1)).trans (congrArg (G m c) ?_))
  funext b
  apply Fin.ext
  match b with
  | ⟨0, _⟩ => show t.val * 400 + (y 0).val = win0_4.index t (0 : Fin 2) * 400 + 1 * (y 0).val; rw [e0]; omega
  | ⟨1, _⟩ => show (y 1).val = win0_4.index t (1 : Fin 2) * 1024 + 1 * (y 1).val; rw [e1]; omega

/-- The forty row blocks tile the matrix. -/
theorem cover (i : S16000x1024.Idx) :
    ∃ t : Fin cfg0.N, (cfg0.win 4).flush t = true ∧ i ∈ ((cfg0.win 4).blk t).view.set := by
  have hi0 : (i 0).val < 16000 := (i 0).isLt
  have hi1 : (i 1).val < 1024 := (i 1).isLt
  have hN : cfg0.N = 40 := N_0
  have ht : (i 0).val / 400 < cfg0.N := by omega
  obtain ⟨-, -, -, -, -, -, -, -, e0, e1⟩ := idx_facts ⟨(i 0).val / 400, ht⟩
  refine ⟨⟨(i 0).val / 400, ht⟩, flush0_4 _, ?_⟩
  rw [mem_blk4]
  intro a
  match a with
  | ⟨0, _⟩ =>
    show win0_4.index ⟨(i 0).val / 400, ht⟩ (0 : Fin 2) * 400 ≤ (i 0).val
      ∧ (i 0).val < win0_4.index ⟨(i 0).val / 400, ht⟩ (0 : Fin 2) * 400 + 400
    rw [e0]
    show (i 0).val / 400 * 400 ≤ (i 0).val ∧ (i 0).val < (i 0).val / 400 * 400 + 400
    omega
  | ⟨1, _⟩ =>
    show win0_4.index ⟨(i 0).val / 400, ht⟩ (1 : Fin 2) * 1024 ≤ (i 1).val
      ∧ (i 1).val < win0_4.index ⟨(i 0).val / 400, ht⟩ (1 : Fin 2) * 1024 + 1024
    rw [e1]
    omega

/-- THE ARRAY the pipeline leaves is the reference's matrix. -/
theorem final4 (c : Dev nD) (hlab : ∀ i, (m ((c : Thread nD τ).loc main_arg2) i).toNat < 80) :
    (dats m 0 c).arrAt 4 cfg0.N = G m c :=
  (dats m 0 c).arrAt_eq_of_cover 4 (G m c) (fun t _ => flushed_eq m c hlab t) cover

/-- The host line after the launch reshapes the matrix to [16 × 1000 × 1024], as the reference's last line does. -/
theorem tail_eq (c : Dev nD) (hlab : ∀ i, (m ((c : Thread nD τ).loc main_arg2) i).toNat < 80) :
    Pipeline.afterTail₀ cfgs (dats m) 0 (V0 m) [hostOps1] c main_v43
      = val_main_v127 (F := Ideal) (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v43) = _
  after_results
  rw [(Pipeline.withArrays_arr spec0 launch0.win.arr_inj c _ _ 4).trans (final4 m c hlab)]
  rfl

/-- THE RUN, READ: the kernel's program ends with its result at the reference's value of the arguments, and the
    arguments unchanged. -/
theorem run (hlab : ∀ (c : Dev nD) i, (m ((c : Thread nD τ).loc main_arg2) i).toNat < 80) :
    θ_run defs (onTc (τ := τ) (main (F := Ideal))) ⟨m, fun _ => 0, ρ⟩ fun r => ∀ c : Dev nD,
      r.2.mem ((c.tc : Thread nD τ).loc main_v43)
        = val_main_v127 (F := Ideal) (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v43 (Pipeline.mem_restRefs_of main_v43 (by decide) (by decide))).trans (tail_eq m c (hlab c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.PreDecode.lean ====
/-
  The precondition read at a label: every target label, read as a signed word, lies in [0, 80), so as an unsigned
  word it is below 80.

  The precondition is a conjunction of five "for all entries" tests reduced by "and" to one bit; the last two
  test 0 ≤ label and label < 80 at every entry of the [16 × 64] label array.
-/
import proofs.«427540_j7267084665334_1_alg».proof.Pre_finite_inputs
import proofs.«427540_j7267084665334_1_alg».proof.Proof.Gen.Pre_finite_inputs
import Idealize.ShloMosaic.Lib.ReduceAll
import Idealize.ShloMosaic.Lib.ValueIdx
import Idealize.ShloMosaic.Lib.StableHlo.Predicate

noncomputable section

namespace Cert.Pre_finite_inputs.Decode

open Cert.Pre_finite_inputs Idealize.ShloMosaic

instance : Subsingleton S_.Idx := ⟨fun a b => funext fun d => d.elim0⟩

/-- A word that is ≥ 0 and < n read signed is below n read unsigned. -/
theorem toNat_lt_of_signed (w : BitVec 32) (n : Nat) (hn : n < 2 ^ 31) (h0 : IntOp.cmpi .sge w 0#32 = 1#1)
    (hlt : IntOp.cmpi .slt w (BitVec.ofNat 32 n) = 1#1) : w.toNat < n := by
  have hpos : w.toNat < 2 ^ 31 := by
    unfold IntOp.cmpi at h0
    rw [StableHlo.Predicate.ofBool_eq_one_iff] at h0
    simp only [BitVec.sle, decide_eq_true_eq] at h0
    have h32 := w.isLt
    have hz : (0#32 : BitVec 32).toInt = 0 := by decide
    rw [hz, BitVec.toInt_eq_toNat_cond w] at h0
    split at h0 <;> omega
  have hb : (BitVec.ofNat 32 n).toNat = n := by
    rw [BitVec.toNat_ofNat]; exact Nat.mod_eq_of_lt (by omega)
  have := (StableHlo.Predicate.slt_iff_toNat (a := w) (b := BitVec.ofNat 32 n) hpos (by rw [hb]; exact hn)).1 hlt
  rw [hb] at this
  exact this

/-- THE PRECONDITION AT A LABEL. -/
theorem label_lt {F : FTy → Type} [FloatOps F] (a0 : FVec F S16x1000x80 .f32) (a1 : FVec F S16x1000x4 .f32)
    (a2 : IVec S16x64 32) (a3 : FVec F S16x64x4 .f32) (h : fn (F := F) a0 a1 a2 a3 = fun _ => 1#1) (i : S16x64.Idx) :
    (a2 i).toNat < 80 := by
  have e := congrFun h ValueIdx.ix0
  unfold fn fn_part1 at e
  dsimp only at e
  change IntOp.andi (IntOp.andi _ (Host.reduce IntOp.andi _ _ _ _ ValueIdx.ix0)) (Host.reduce IntOp.andi _ _ _ _ ValueIdx.ix0) = 1#1 at e
  rw [IntOp.andi_eq_one, IntOp.andi_eq_one] at e
  obtain ⟨⟨-, hge⟩, hlt⟩ := e
  have h0 : IntOp.cmpi .sge (a2 i) 0#32 = 1#1 := Host.reduce_andi_all _ _ _ _ _ hge i
  have h80 : IntOp.cmpi .slt (a2 i) (BitVec.ofNat 32 80) = 1#1 := Host.reduce_andi_all _ _ _ _ _ hlt i
  exact toNat_lt_of_signed _ 80 (by decide) h0 h80

end Cert.Pre_finite_inputs.Decode

end
-- ==== Proof.lean ====
/-
  The matching cost matrix of 16000 predicted boxes against 1024 target boxes: a class term — for query n and
  target j, the positive focal weight minus the negative focal weight of query n at target j's label — plus the
  negated generalized intersection over union of box n and box j.

  The kernel computes the class term as a product of the [16000 × 80] weight difference with the [80 × 1024]
  indicator table of the labels, where the reference reads the two weight tables at the label; for a label that
  is a class (0 ≤ label < 80: the precondition's added conjunct, the reference's own indexing domain) the
  indicator column has a single one, at the label, and the product's sum is the entry at the label, on all
  extended reals.  The box term is the same expression in both programs, operation for operation.  The kernel's
  forty row blocks tile the matrix, so its result array is the reference's result, entry by entry.
-/
import proofs.«427540_j7267084665334_1_alg».proof.Defs
import proofs.«427540_j7267084665334_1_alg».proof.Proof.Gen.Kernel
import proofs.«427540_j7267084665334_1_alg».proof.Proof.Gen.Kernel.Skeleton
import proofs.«427540_j7267084665334_1_alg».proof.Proof.Gen.Kernel.Launch
import proofs.«427540_j7267084665334_1_alg».proof.Proof.Gen.Kernel.Points
import proofs.«427540_j7267084665334_1_alg».proof.Proof.Gen.Kernel.Frame
import proofs.«427540_j7267084665334_1_alg».proof.Proof.Gen.KernelIdeal
import proofs.«427540_j7267084665334_1_alg».proof.Proof.Gen.KernelIdeal.Skeleton
import proofs.«427540_j7267084665334_1_alg».proof.Proof.Gen.KernelIdeal.Launch
import proofs.«427540_j7267084665334_1_alg».proof.Proof.Gen.KernelIdeal.Points
import proofs.«427540_j7267084665334_1_alg».proof.Proof.Gen.KernelIdeal.Frame
import proofs.«427540_j7267084665334_1_alg».proof.Proof.Gen.ReferenceIdeal
import proofs.«427540_j7267084665334_1_alg».proof.Proof.Gen.ReferenceIdeal.Run
import proofs.«427540_j7267084665334_1_alg».proof.Proof.Gen.ReferenceIdeal.Read
import proofs.«427540_j7267084665334_1_alg».proof.Proof.Gen.Pre_finite_inputs
import proofs.«427540_j7267084665334_1_alg».proof.Proof.KernelWhole
import proofs.«427540_j7267084665334_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel and the idealized kernel run, and leave their arguments as they were. -/
theorem frame_k : Cert.frame_Kernel := fun m ρ _ => Cert.Kernel.Gen.frame m ρ
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with finite floats and every label a class, both programs end with the
    reference's cost matrix of those arguments. -/
theorem algebraic : Cert.algebraic_KernelIdeal_ReferenceIdeal := by
  intro m ρ m' ρ' hpre hagree
  have hlab : ∀ (c : Dev Cert.KernelIdeal.nD) i,
      (m ((c : Thread Cert.KernelIdeal.nD Cert.KernelIdeal.τ).loc Cert.KernelIdeal.main_arg2) i).toNat < 80 :=
    fun c i => Cert.Pre_finite_inputs.Decode.label_lt _ _ _ _ (hpre c) i
  refine ⟨_, Cert.KernelIdeal.Whole.run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v127_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
